-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S300000 : Shape := ⟨1, ![300000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S512x256 : Shape := ⟨2, ![512, 256]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S512x256 : S_.BroadcastsInDim S512x256 (![] : Fin 0 → Fin S512x256.rank)
  reducesTo_S512x256_S_d0_1 : S512x256.ReducesTo [0, 1] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S512x256 .f32) (main_arg9 : FVec F S256 .f32) (main_arg10 : FVec F S256x10 .f32) (main_arg11 : FVec F S10 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x10 .f32 := Host.absf main_arg10
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S256 .f32) (main_arg6 : FVec F S256x10 .f32) (main_arg7 : FVec F S10 .f32) (main_arg8 : FVec F S512x256 .f32) (main_arg9 : FVec F S256 .f32) (main_arg10 : FVec F S256x10 .f32) (main_arg11 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg6
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S300000x256 .f32) (main_arg1 : IVec S300000 32) (main_arg2 : FVec F S256x256 .f32) (main_arg3 : FVec F S256 .f32) (main_arg4 : FVec F S256x256 .f32) (main_arg5 : FVec F S256 .f32) (main_arg6 : FVec F S256x10 .f32) (main_arg7 : FVec F S10 .f32) (main_arg8 : FVec F S512x256 .f32) (main_arg9 : FVec F S256 .f32) (main_arg10 : FVec F S256x10 .f32) (main_arg11 : FVec F S10 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S300000x256 : Shape := ⟨2, ![300000, 256]⟩
abbrev S300000 : Shape := ⟨1, ![300000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S512x256 : Shape := ⟨2, ![512, 256]⟩
abbrev S_ : Shape := ⟨0, ![]⟩
abbrev S300000x1 : Shape := ⟨2, ![300000, 1]⟩
abbrev S1x256 : Shape := ⟨2, ![1, 256]⟩
abbrev S1x10 : Shape := ⟨2, ![1, 10]⟩
abbrev S300000x10 : Shape := ⟨2, ![300000, 10]⟩
abbrev S3000x256 : Shape := ⟨2, ![3000, 256]⟩
abbrev S3000x10 : Shape := ⟨2, ![3000, 10]⟩
abbrev S512x10 : Shape := ⟨2, ![512, 10]⟩
abbrev S3000x1 : Shape := ⟨2, ![3000, 1]⟩
abbrev S3000x512 : Shape := ⟨2, ![3000, 512]⟩

abbrev nBuf : Space → Nat
  | .hbm => 38
  | .vmem => 26
  | .smem => 0
  | _ => 0

abbrev bufTy : (tb : Table) → Fin (tcTables nBuf tb) → BufTy
  | .hbm, ⟨0, _⟩ => ⟨S300000x256, .f32⟩
  | .hbm, ⟨1, _⟩ => ⟨S300000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x10, .f32⟩
  | .hbm, ⟨7, _⟩ => ⟨S10, .f32⟩
  | .hbm, ⟨8, _⟩ => ⟨S512x256, .f32⟩
  | .hbm, ⟨9, _⟩ => ⟨S256, .f32⟩
  | .hbm, ⟨10, _⟩ => ⟨S256x10, .f32⟩
  | .hbm, ⟨11, _⟩ => ⟨S10, .f32⟩
  | .hbm, ⟨12, _⟩ => ⟨S_, .f32⟩
  | .hbm, ⟨13, _⟩ => ⟨S512x256, .f32⟩
  | .hbm, ⟨14, _⟩ => ⟨S300000x1, .i32⟩
  | .hbm, ⟨15, _⟩ => ⟨S512x256, .f32⟩
  | .hbm, ⟨16, _⟩ => ⟨S512x256, .bf16⟩
  | .hbm, ⟨17, _⟩ => ⟨S_, .i32⟩
  | .hbm, ⟨18, _⟩ => ⟨S300000, .i32⟩
  | .hbm, ⟨19, _⟩ => ⟨S300000, .i1⟩
  | .hbm, ⟨20, _⟩ => ⟨S_, .i32⟩
  | .hbm, ⟨21, _⟩ => ⟨S300000, .i32⟩
  | .hbm, ⟨22, _⟩ => ⟨S300000, .i32⟩
  | .hbm, ⟨23, _⟩ => ⟨S300000, .i32⟩
  | .hbm, ⟨24, _⟩ => ⟨S300000x1, .i32⟩
  | .hbm, ⟨25, _⟩ => ⟨S300000x256, .bf16⟩
  | .hbm, ⟨26, _⟩ => ⟨S256x256, .f32⟩
  | .hbm, ⟨27, _⟩ => ⟨S256x256, .f32⟩
  | .hbm, ⟨28, _⟩ => ⟨S1x256, .f32⟩
  | .hbm, ⟨29, _⟩ => ⟨S1x256, .f32⟩
  | .hbm, ⟨30, _⟩ => ⟨S1x10, .f32⟩
  | .hbm, ⟨31, _⟩ => ⟨S1x256, .f32⟩
  | .hbm, ⟨32, _⟩ => ⟨S1x10, .f32⟩
  | .hbm, ⟨33, _⟩ => ⟨S300000x10, .f32⟩
  | .hbm, ⟨34, _⟩ => ⟨S300000x10, .f32⟩
  | .hbm, ⟨35, _⟩ => ⟨S300000x10, .bf16⟩
  | .hbm, ⟨36, _⟩ => ⟨S300000x1, .i32⟩
  | .hbm, ⟨37, _⟩ => ⟨S512x10, .f32⟩
  | .local _ .vmem, ⟨0, _⟩ => ⟨S3000x256, .f32⟩
  | .local _ .vmem, ⟨1, _⟩ => ⟨S3000x256, .f32⟩
  | .local _ .vmem, ⟨2, _⟩ => ⟨S3000x256, .bf16⟩
  | .local _ .vmem, ⟨3, _⟩ => ⟨S3000x256, .bf16⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x10, .f32⟩
  | .local _ .vmem, ⟨9, _⟩ => ⟨S1x10, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S256x10, .f32⟩
  | .local _ .vmem, ⟨14, _⟩ => ⟨S1x10, .f32⟩
  | .local _ .vmem, ⟨15, _⟩ => ⟨S3000x10, .f32⟩
  | .local _ .vmem, ⟨16, _⟩ => ⟨S3000x10, .f32⟩
  | .local _ .vmem, ⟨17, _⟩ => ⟨S3000x10, .f32⟩
  | .local _ .vmem, ⟨18, _⟩ => ⟨S3000x10, .f32⟩
  | .local _ .vmem, ⟨19, _⟩ => ⟨S3000x10, .bf16⟩
  | .local _ .vmem, ⟨20, _⟩ => ⟨S3000x10, .bf16⟩
  | .local _ .vmem, ⟨21, _⟩ => ⟨S3000x10, .bf16⟩
  | .local _ .vmem, ⟨22, _⟩ => ⟨S3000x10, .bf16⟩
  | .local _ .vmem, ⟨23, _⟩ => ⟨S3000x1, .i32⟩
  | .local _ .vmem, ⟨24, _⟩ => ⟨S3000x1, .i32⟩
  | .local _ .vmem, ⟨25, _⟩ => ⟨S512x10, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3000x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3000x10 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3000x10 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3000x10 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bcast_S_S512x256 : S_.BroadcastsInDim S512x256 (![] : Fin 0 → Fin S512x256.rank)
  bcast_S300000_S300000x1_0 : S300000.BroadcastsInDim S300000x1 (![0] : Fin 1 → Fin S300000x1.rank)
  bitsLt_bf16_f32 : FTy.bits .bf16 < FTy.bits .f32
  bcast_S_S300000 : S_.BroadcastsInDim S300000 (![] : Fin 0 → Fin S300000.rank)
  slices_S512x256_S256x256_0_0 : S512x256.Slices ![0, 0] S256x256
  slices_S512x256_S256x256_256_0 : S512x256.Slices ![256, 0] S256x256
  shapeCasts_S256_S1x256 : S256.ShapeCasts S1x256
  shapeCasts_S10_S1x10 : S10.ShapeCasts S1x10
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3000x256 : S1x256.Broadcasts S3000x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S3000x10 : S1x10.Broadcasts S3000x10
  shapeCasts_S256x256_S256x256 : S256x256.ShapeCasts S256x256
  inb_S3000x10_S3000x10_0_0 : ∀ a, (![0, 0] : Fin 2 → Nat) a + S3000x10.size a ≤ S3000x10.size a
  h_S3000x10 : 0 < S3000x10.numel
  packedbf16_S3000x10_S3000x10_0_0 : (Rect.unit (s := S3000x10) ![0, 0] S3000x10.size inb_S3000x10_S3000x10_0_0).PackedRows (EltTy.packing .bf16)
  shapeCasts_S300000_S300000x1 : S300000.ShapeCasts S300000x1
  inb_S512x10_S512x10_0_0 : ∀ a, (![0, 0] : Fin 2 → Nat) a + S512x10.size a ≤ S512x10.size a
  h_S512x10 : 0 < S512x10.numel
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  iota_S3000x512_d1_w32 : S3000x512.Iotas .tc 32 [1]
  broadcasts_S3000x1_S3000x512 : S3000x1.Broadcasts S3000x512
  natLt_1_32 : 1 < 32
  shapeCasts_S3000x10_S3000x10 : S3000x10.ShapeCasts S3000x10
  shapeCasts_S512x10_S512x10 : S512x10.ShapeCasts S512x10
  scatter_S512x256_S300000x1_S300000x256_1_0_0_1_wf : ScatterDims.WF S512x256 S300000x1 S300000x256 [1] [0] [0] 1
  gather_S512x256_S300000x1_S300000x256_1_0_n_n_0_1_1256_wf : GatherDims.WF S512x256 S300000x1 S300000x256 [1] [0] [] [0] [] 1 ![1, 256]
  dot_S3000x256_S256x256_S3000x256_1_0_0_1_n_n_wf : DotDims.WF S3000x256 S256x256 S3000x256 [1] [0] [0] [1] [] []
  dot_S3000x256_S256x10_S3000x10_1_0_0_1_n_n_wf : DotDims.WF S3000x256 S256x10 S3000x10 [1] [0] [0] [1] [] []
  dot_S3000x512_S3000x10_S512x10_0_0_1_1_n_n_wf : DotDims.WF S3000x512 S3000x10 S512x10 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x256.size a ≤ S300000x256.size a
  hwx0_0 : ∀ i : grid0.Coords, EltTy.bits .f32 = 32 ∨ (Rect.block (s := S300000x256) S3000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x256.size a ≤ S300000x256.size a
  hwx0_1 : ∀ i : grid0.Coords, EltTy.bits .bf16 = 32 ∨ (Rect.block (s := S300000x256) S3000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x10.size a ≤ S256x10.size a
  hwx0_6 : ∀ i : grid0.Coords, EltTy.bits .f32 = 32 ∨ (Rect.block (s := S256x10) S256x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x10.size a ≤ S256x10.size a
  hwx0_11 : ∀ i : grid0.Coords, EltTy.bits .f32 = 32 ∨ (Rect.block (s := S256x10) S256x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x10.size a ≤ S1x10.size a
  hwx0_12 : ∀ i : grid0.Coords, EltTy.bits .f32 = 32 ∨ (Rect.block (s := S1x10) S1x10.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3000x10.size a ≤ S300000x10.size a
  hwx0_13 : ∀ i : grid0.Coords, EltTy.bits .f32 = 32 ∨ (Rect.block (s := S300000x10) S3000x10.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3000x10.size a ≤ S300000x10.size a
  hwx0_14 : ∀ i : grid0.Coords, EltTy.bits .f32 = 32 ∨ (Rect.block (s := S300000x10) S3000x10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S3000x10.size a ≤ S300000x10.size a
  hwx0_15 : ∀ i : grid0.Coords, EltTy.bits .bf16 = 32 ∨ (Rect.block (s := S300000x10) S3000x10.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x10.size a ≤ S300000x10.size a
  hwx1_0 : ∀ i : grid1.Coords, EltTy.bits .bf16 = 32 ∨ (Rect.block (s := S300000x10) S3000x10.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x1.size a ≤ S300000x1.size a
  hwx1_1 : ∀ i : grid1.Coords, EltTy.bits .i32 = 32 ∨ (Rect.block (s := S300000x1) S3000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x10.size a ≤ S512x10.size a
  hwx1_2 : ∀ i : grid1.Coords, EltTy.bits .f32 = 32 ∨ (Rect.block (s := S512x10) S512x10.size (cc1_transform_2 i) (hinb1_2 i)).WholeWords (EltTy.packing .f32)

variable [Facts₀]

def scatter_S512x256_S300000x1_S300000x256_1_0_0_1 : ScatterDims S512x256 S300000x1 S300000x256 where
  updateWindowDims := [1]
  insertedWindowDims := [0]
  scatterDimsToOperandDims := [0]
  indexVectorDim := 1
  wf := scatter_S512x256_S300000x1_S300000x256_1_0_0_1_wf
def gather_S512x256_S300000x1_S300000x256_1_0_n_n_0_1_1256 : GatherDims S512x256 S300000x1 S300000x256 where
  offsetDims := [1]
  collapsedSliceDims := [0]
  operandBatchingDims := []
  startIndicesBatchingDims := []
  startIndexMap := [0]
  indexVectorDim := 1
  sliceSizes := ![1, 256]
  wf := gather_S512x256_S300000x1_S300000x256_1_0_n_n_0_1_1256_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def dot_S3000x256_S256x10_S3000x10_1_0_0_1_n_n : DotDims S3000x256 S256x10 S3000x10 where
  lhsContracting := [1]
  rhsContracting := [0]
  lhsNonContracting := [0]
  rhsNonContracting := [1]
  lhsBatch := []
  rhsBatch := []
  wf := dot_S3000x256_S256x10_S3000x10_1_0_0_1_n_n_wf
def dot_S3000x512_S3000x10_S512x10_0_0_1_1_n_n : DotDims S3000x512 S3000x10 S512x10 where
  lhsContracting := [0]
  rhsContracting := [0]
  lhsNonContracting := [1]
  rhsNonContracting := [1]
  lhsBatch := []
  rhsBatch := []
  wf := dot_S3000x512_S3000x10_S512x10_0_0_1_1_n_n_wf

abbrev win0_0 : Pipeline.Window sig grid0 :=
  Pipeline.Window.ofSpec (Memref.whole main_arg0) S3000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18_0) S3000x10.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v18_1) S3000x10.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_2) S3000x10.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v18_2) S3000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S3000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S512x10.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S300000x256 : Shape := ⟨2, ![300000, 256]⟩
abbrev S300000 : Shape := ⟨1, ![300000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S512x256 : Shape := ⟨2, ![512, 256]⟩
abbrev S1x256 : Shape := ⟨2, ![1, 256]⟩
abbrev S_ : Shape := ⟨0, ![]⟩
abbrev S300000x10 : Shape := ⟨2, ![300000, 10]⟩
abbrev S1x10 : Shape := ⟨2, ![1, 10]⟩
abbrev S300000x1 : Shape := ⟨2, ![300000, 1]⟩
abbrev S300000x512 : Shape := ⟨2, ![300000, 512]⟩
abbrev S512x10 : Shape := ⟨2, ![512, 10]⟩

abbrev nBuf : Space → Nat
  | .hbm => 60
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S300000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x10, .f32⟩
  | .hbm, ⟨7, _⟩ => ⟨S10, .f32⟩
  | .hbm, ⟨8, _⟩ => ⟨S512x256, .f32⟩
  | .hbm, ⟨9, _⟩ => ⟨S256, .f32⟩
  | .hbm, ⟨10, _⟩ => ⟨S256x10, .f32⟩
  | .hbm, ⟨11, _⟩ => ⟨S10, .f32⟩
  | .hbm, ⟨12, _⟩ => ⟨S300000x256, .f32⟩
  | .hbm, ⟨13, _⟩ => ⟨S1x256, .f32⟩
  | .hbm, ⟨14, _⟩ => ⟨S300000x256, .f32⟩
  | .hbm, ⟨15, _⟩ => ⟨S300000x256, .f32⟩
  | .hbm, ⟨16, _⟩ => ⟨S_, .f32⟩
  | .hbm, ⟨17, _⟩ => ⟨S300000x256, .f32⟩
  | .hbm, ⟨18, _⟩ => ⟨S300000x256, .f32⟩
  | .hbm, ⟨19, _⟩ => ⟨S300000x256, .f32⟩
  | .hbm, ⟨20, _⟩ => ⟨S1x256, .f32⟩
  | .hbm, ⟨21, _⟩ => ⟨S300000x256, .f32⟩
  | .hbm, ⟨22, _⟩ => ⟨S300000x256, .f32⟩
  | .hbm, ⟨23, _⟩ => ⟨S_, .f32⟩
  | .hbm, ⟨24, _⟩ => ⟨S300000x256, .f32⟩
  | .hbm, ⟨25, _⟩ => ⟨S300000x256, .f32⟩
  | .hbm, ⟨26, _⟩ => ⟨S300000x10, .f32⟩
  | .hbm, ⟨27, _⟩ => ⟨S1x10, .f32⟩
  | .hbm, ⟨28, _⟩ => ⟨S300000x10, .f32⟩
  | .hbm, ⟨29, _⟩ => ⟨S300000x10, .f32⟩
  | .hbm, ⟨30, _⟩ => ⟨S_, .f32⟩
  | .hbm, ⟨31, _⟩ => ⟨S512x256, .f32⟩
  | .hbm, ⟨32, _⟩ => ⟨S300000x1, .i32⟩
  | .hbm, ⟨33, _⟩ => ⟨S512x256, .f32⟩
  | .hbm, ⟨34, _⟩ => ⟨S_, .i32⟩
  | .hbm, ⟨35, _⟩ => ⟨S300000, .i32⟩
  | .hbm, ⟨36, _⟩ => ⟨S300000, .i1⟩
  | .hbm, ⟨37, _⟩ => ⟨S_, .i32⟩
  | .hbm, ⟨38, _⟩ => ⟨S300000, .i32⟩
  | .hbm, ⟨39, _⟩ => ⟨S300000, .i32⟩
  | .hbm, ⟨40, _⟩ => ⟨S300000, .i32⟩
  | .hbm, ⟨41, _⟩ => ⟨S300000x1, .i32⟩
  | .hbm, ⟨42, _⟩ => ⟨S300000x256, .f32⟩
  | .hbm, ⟨43, _⟩ => ⟨S300000x512, .f32⟩
  | .hbm, ⟨44, _⟩ => ⟨S300000x256, .f32⟩
  | .hbm, ⟨45, _⟩ => ⟨S1x256, .f32⟩
  | .hbm, ⟨46, _⟩ => ⟨S300000x256, .f32⟩
  | .hbm, ⟨47, _⟩ => ⟨S300000x256, .f32⟩
  | .hbm, ⟨48, _⟩ => ⟨S_, .f32⟩
  | .hbm, ⟨49, _⟩ => ⟨S300000x256, .f32⟩
  | .hbm, ⟨50, _⟩ => ⟨S300000x256, .f32⟩
  | .hbm, ⟨51, _⟩ => ⟨S300000x10, .f32⟩
  | .hbm, ⟨52, _⟩ => ⟨S1x10, .f32⟩
  | .hbm, ⟨53, _⟩ => ⟨S300000x10, .f32⟩
  | .hbm, ⟨54, _⟩ => ⟨S300000x10, .f32⟩
  | .hbm, ⟨55, _⟩ => ⟨S300000x10, .f32⟩
  | .hbm, ⟨56, _⟩ => ⟨S_, .f32⟩
  | .hbm, ⟨57, _⟩ => ⟨S512x10, .f32⟩
  | .hbm, ⟨58, _⟩ => ⟨S300000x1, .i32⟩
  | .hbm, ⟨59, _⟩ => ⟨S512x10, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call2_cst : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_1 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S10_S1x10_1 : S10.BroadcastsInDim S1x10 (![1] : Fin 1 → Fin S1x10.rank)
  bcast_S1x10_S300000x10_0_1 : S1x10.BroadcastsInDim S300000x10 (![0, 1] : Fin 2 → Fin S300000x10.rank)
  bcast_S_S512x256 : S_.BroadcastsInDim S512x256 (![] : Fin 0 → Fin S512x256.rank)
  bcast_S300000_S300000x1_0 : S300000.BroadcastsInDim S300000x1 (![0] : Fin 1 → Fin S300000x1.rank)
  bcast_S_S300000 : S_.BroadcastsInDim S300000 (![] : Fin 0 → Fin S300000.rank)
  concatenates_S300000x256_S300000x256_S300000x512_d1 : Shape.Concatenates [S300000x256, S300000x256] S300000x512 1
  bcast_S_S512x10 : S_.BroadcastsInDim S512x10 (![] : Fin 0 → Fin S512x10.rank)
  dot_S300000x256_S256x256_S300000x256_1_0_0_1_n_n_wf : DotDims.WF S300000x256 S256x256 S300000x256 [1] [0] [0] [1] [] []
  dot_S300000x256_S256x10_S300000x10_1_0_0_1_n_n_wf : DotDims.WF S300000x256 S256x10 S300000x10 [1] [0] [0] [1] [] []
  scatter_S512x256_S300000x1_S300000x256_1_0_0_1_wf : ScatterDims.WF S512x256 S300000x1 S300000x256 [1] [0] [0] 1
  gather_S512x256_S300000x1_S300000x256_1_0_n_n_0_1_1256_wf : GatherDims.WF S512x256 S300000x1 S300000x256 [1] [0] [] [0] [] 1 ![1, 256]
  dot_S300000x512_S512x256_S300000x256_1_0_0_1_n_n_wf : DotDims.WF S300000x512 S512x256 S300000x256 [1] [0] [0] [1] [] []
  scatter_S512x10_S300000x1_S300000x10_1_0_0_1_wf : ScatterDims.WF S512x10 S300000x1 S300000x10 [1] [0] [0] 1

variable [Facts₀]

def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def dot_S300000x256_S256x10_S300000x10_1_0_0_1_n_n : DotDims S300000x256 S256x10 S300000x10 where
  lhsContracting := [1]
  rhsContracting := [0]
  lhsNonContracting := [0]
  rhsNonContracting := [1]
  lhsBatch := []
  rhsBatch := []
  wf := dot_S300000x256_S256x10_S300000x10_1_0_0_1_n_n_wf
def scatter_S512x256_S300000x1_S300000x256_1_0_0_1 : ScatterDims S512x256 S300000x1 S300000x256 where
  updateWindowDims := [1]
  insertedWindowDims := [0]
  scatterDimsToOperandDims := [0]
  indexVectorDim := 1
  wf := scatter_S512x256_S300000x1_S300000x256_1_0_0_1_wf
def gather_S512x256_S300000x1_S300000x256_1_0_n_n_0_1_1256 : GatherDims S512x256 S300000x1 S300000x256 where
  offsetDims := [1]
  collapsedSliceDims := [0]
  operandBatchingDims := []
  startIndicesBatchingDims := []
  startIndexMap := [0]
  indexVectorDim := 1
  sliceSizes := ![1, 256]
  wf := gather_S512x256_S300000x1_S300000x256_1_0_n_n_0_1_1256_wf
def dot_S300000x512_S512x256_S300000x256_1_0_0_1_n_n : DotDims S300000x512 S512x256 S300000x256 where
  lhsContracting := [1]
  rhsContracting := [0]
  lhsNonContracting := [0]
  rhsNonContracting := [1]
  lhsBatch := []
  rhsBatch := []
  wf := dot_S300000x512_S512x256_S300000x256_1_0_0_1_n_n_wf
def scatter_S512x10_S300000x1_S300000x10_1_0_0_1 : ScatterDims S512x10 S300000x1 S300000x10 where
  updateWindowDims := [1]
  insertedWindowDims := [0]
  scatterDimsToOperandDims := [0]
  indexVectorDim := 1
  wf := scatter_S512x10_S300000x1_S300000x10_1_0_0_1_wf

class Facts : Prop extends Facts₀ where

variable [Facts]
-- ==== Proof.Spec.lean ====
/-
  The mathematics both programs compute, index by index, over the extended reals.

  Arrays are read through their coordinates: a matrix is a function of (row, column). A dense layer at (row n, column j)
  is the sum over k of a(n,k) * W(k,j), plus the bias b(j); a rectified layer takes the maximum with zero.

  * hNet      : three dense layers, the first two rectified (the per-node score).
  * thetaNet  : a rectified layer whose input is split in two halves (own features and pooled features, each with
                its own half of the weight matrix), then a dense layer.
  * thetaCat  : the same network with the two halves joined along the column axis and one weight matrix.
  * segSum    : per segment g and column q, the sum of the rows whose segment word, read signed, is g.
  * acc       : the same sum taken tile by tile (100 tiles of 3000 rows), each row weighted by the indicator that
                its segment word is g, the tiles' partial sums added up in order.
-/
import Mathlib.Data.EReal.Basic
import Mathlib.Algebra.BigOperators.Fin

noncomputable section

open scoped BigOperators

namespace Cert.Spec

/-- A dense layer at (row n, column j). -/
def layer {N K J : Nat} (a : Fin N → Fin K → EReal) (W : Fin K → Fin J → EReal) (b : Fin J → EReal)
    (n : Fin N) (j : Fin J) : EReal :=
  (∑ k : Fin K, a n k * W k j) + b j

/-- A dense layer followed by the maximum with zero. -/
def rlayer {N K J : Nat} (a : Fin N → Fin K → EReal) (W : Fin K → Fin J → EReal) (b : Fin J → EReal)
    (n : Fin N) (j : Fin J) : EReal :=
  max (layer a W b n j) 0

/-- Three dense layers, the first two rectified. -/
def hNet {N D C : Nat} (x : Fin N → Fin D → EReal) (W0 : Fin D → Fin D → EReal) (b0 : Fin D → EReal)
    (W1 : Fin D → Fin D → EReal) (b1 : Fin D → EReal) (W2 : Fin D → Fin C → EReal) (b2 : Fin C → EReal)
    (n : Fin N) (q : Fin C) : EReal :=
  layer (rlayer (rlayer x W0 b0) W1 b1) W2 b2 n q

/-- The rectified first layer of the second network, its input in two halves. -/
def splitHidden {N D J : Nat} (x pb : Fin N → Fin D → EReal) (Wx Wp : Fin D → Fin J → EReal) (b0 : Fin J → EReal)
    (n : Fin N) (j : Fin J) : EReal :=
  max (((∑ k : Fin D, x n k * Wx k j) + (∑ k : Fin D, pb n k * Wp k j)) + b0 j) 0

/-- The second network with its input in two halves. -/
def thetaNet {N D J C : Nat} (x pb : Fin N → Fin D → EReal) (Wx Wp : Fin D → Fin J → EReal) (b0 : Fin J → EReal)
    (W1 : Fin J → Fin C → EReal) (b1 : Fin C → EReal) (n : Fin N) (q : Fin C) : EReal :=
  layer (splitHidden x pb Wx Wp b0) W1 b1 n q

/-- The second network with its input joined. -/
def thetaCat {N K J C : Nat} (cat : Fin N → Fin K → EReal) (W : Fin K → Fin J → EReal) (b0 : Fin J → EReal)
    (W1 : Fin J → Fin C → EReal) (b1 : Fin C → EReal) (n : Fin N) (q : Fin C) : EReal :=
  layer (rlayer cat W b0) W1 b1 n q

/-- Per segment and column, the sum of the rows whose segment word, read signed, names the segment. -/
def segSum {M G C : Nat} (seg : Fin M → BitVec 32) (p : Fin M → Fin C → EReal) (g : Fin G) (q : Fin C) : EReal :=
  ∑ e ∈ Finset.univ.filter (fun e : Fin M => (seg e).toInt = (g.val : ℤ)), p e q

/-- The indicator that a segment word, read signed, names segment g. -/
def oh {G : Nat} (b : BitVec 32) (g : Fin G) : EReal := if b.toInt = (g.val : ℤ) then 1 else 0

/-- Row k of tile n among 100 tiles of 3000 rows. -/
def rowOf (n : Nat) (hn : n < 100) (k : Fin 3000) : Fin 300000 := ⟨3000 * n + k.val, by have := k.isLt; omega⟩

/-- Tile n's partial sum: every row of the tile, weighted by the indicator. -/
def part {G C : Nat} (seg : Fin 300000 → BitVec 32) (p : Fin 300000 → Fin C → EReal) (n : Nat) (hn : n < 100)
    (g : Fin G) (q : Fin C) : EReal :=
  ∑ k : Fin 3000, oh (seg (rowOf n hn k)) g * p (rowOf n hn k) q

/-- The tiles' partial sums added up in order, through tile n. -/
def acc {G C : Nat} (seg : Fin 300000 → BitVec 32) (p : Fin 300000 → Fin C → EReal) :
    (n : Nat) → n < 100 → Fin G → Fin C → EReal
  | 0, hn => fun g q => part seg p 0 hn g q
  | n + 1, hn => fun g q => acc seg p n (Nat.lt_of_succ_lt hn) g q + part seg p (n + 1) hn g q

end Cert.Spec

end
-- ==== Proof.Region0.lean ====
/-
  Region 0 (the per-node networks), read off the pipeline's proof data at any entry contents V: each of its three
  output arrays, after the last grid point, is one function of the thirteen input arrays as the region finds them.
  Tile t holds rows 3000 t .. 3000 t + 2999; the weights and biases are whole at every tile.
-/
import proofs.«427214_j54589034332715_1_alg».proof.Proof.Gen.KernelIdeal.Frame
import proofs.«427214_j54589034332715_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R0

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- The region's input arrays as it finds them, at their literal types. -/
abbrev aX (c : Dev nD) : Vec Ideal S300000x256 .f32 := V c (Pipeline.arrRef spec0 0)
abbrev aPB (c : Dev nD) : Vec Ideal S300000x256 .bf16 := V c (Pipeline.arrRef spec0 1)
abbrev aHW0 (c : Dev nD) : Vec Ideal S256x256 .f32 := V c (Pipeline.arrRef spec0 2)
abbrev aHB0 (c : Dev nD) : Vec Ideal S1x256 .f32 := V c (Pipeline.arrRef spec0 3)
abbrev aHW1 (c : Dev nD) : Vec Ideal S256x256 .f32 := V c (Pipeline.arrRef spec0 4)
abbrev aHB1 (c : Dev nD) : Vec Ideal S1x256 .f32 := V c (Pipeline.arrRef spec0 5)
abbrev aHW2 (c : Dev nD) : Vec Ideal S256x10 .f32 := V c (Pipeline.arrRef spec0 6)
abbrev aHB2 (c : Dev nD) : Vec Ideal S1x10 .f32 := V c (Pipeline.arrRef spec0 7)
abbrev aTWx (c : Dev nD) : Vec Ideal S256x256 .f32 := V c (Pipeline.arrRef spec0 8)
abbrev aTWp (c : Dev nD) : Vec Ideal S256x256 .f32 := V c (Pipeline.arrRef spec0 9)
abbrev aTB0 (c : Dev nD) : Vec Ideal S1x256 .f32 := V c (Pipeline.arrRef spec0 10)
abbrev aTW1 (c : Dev nD) : Vec Ideal S256x10 .f32 := V c (Pipeline.arrRef spec0 11)
abbrev aTB1 (c : Dev nD) : Vec Ideal S1x10 .f32 := V c (Pipeline.arrRef spec0 12)

/-- The first network's value at (node n, class q), from the arrays the region finds. -/
def hSpec (c : Dev nD) (n : Fin 300000) (q : Fin 10) : EReal :=
  Spec.hNet (fun n k => aX V c (ix2 n k)) (fun k j => aHW0 V c (ix2 k j)) (fun j => aHB0 V c (ix2 0 j))
    (fun k j => aHW1 V c (ix2 k j)) (fun j => aHB1 V c (ix2 0 j))
    (fun k j => aHW2 V c (ix2 k j)) (fun j => aHB2 V c (ix2 0 j)) n q

/-- The second network's value at (node n, class q), from the arrays the region finds. -/
def thetaSpec (c : Dev nD) (n : Fin 300000) (q : Fin 10) : EReal :=
  Spec.thetaNet (fun n k => aX V c (ix2 n k)) (fun n k => aPB V c (ix2 n k))
    (fun k j => aTWx V c (ix2 k j)) (fun k j => aTWp V c (ix2 k j)) (fun j => aTB0 V c (ix2 0 j))
    (fun k j => aTW1 V c (ix2 k j)) (fun j => aTB1 V c (ix2 0 j)) n q

/-! ## Each network's value at a node reads that node's row only -/

/-- The first network at node n is a function of row n of the features: two feature matrices, of any two
    heights, that agree on a row give the same value there. -/
theorem hNet_row {N N' D C : Nat} (x : Fin N → Fin D → EReal) (x' : Fin N' → Fin D → EReal)
    (W0 : Fin D → Fin D → EReal) (b0 : Fin D → EReal) (W1 : Fin D → Fin D → EReal) (b1 : Fin D → EReal)
    (W2 : Fin D → Fin C → EReal) (b2 : Fin C → EReal) (n : Fin N) (n' : Fin N') (h : ∀ k, x n k = x' n' k)
    (q : Fin C) : Spec.hNet x W0 b0 W1 b1 W2 b2 n q = Spec.hNet x' W0 b0 W1 b1 W2 b2 n' q := by
  simp only [Spec.hNet, Spec.layer, Spec.rlayer, h]

/-- The second network at node n is a function of row n of the own features and row n of the pooled ones. -/
theorem thetaNet_row {N N' D J C : Nat} (x pb : Fin N → Fin D → EReal) (x' pb' : Fin N' → Fin D → EReal)
    (Wx Wp : Fin D → Fin J → EReal) (b0 : Fin J → EReal) (W1 : Fin J → Fin C → EReal) (b1 : Fin C → EReal)
    (n : Fin N) (n' : Fin N') (hx : ∀ k, x n k = x' n' k) (hp : ∀ k, pb n k = pb' n' k) (q : Fin C) :
    Spec.thetaNet x pb Wx Wp b0 W1 b1 n q = Spec.thetaNet x' pb' Wx Wp b0 W1 b1 n' q := by
  simp only [Spec.thetaNet, Spec.layer, Spec.splitHidden, hx, hp]

/-! ## The kernel's two contractions read at an index

Both contract the left operand's columns with the right operand's rows, into a zero accumulator: at (row p, column j)
the sum over k of left(p, k) * right(k, j). -/

theorem lhs_hid_0 (i : S3000x256.Idx) (q : dot_S3000x256_S256x256_S3000x256_1_0_0_1_n_n.contr.Idx) :
    (dot_S3000x256_S256x256_S3000x256_1_0_0_1_n_n.lhsIdx i q 0).val = (i 0).val := by
  unfold DotDims.lhsIdx
  rw [dif_neg (show ¬(0 : Fin S3000x256.rank) ∈ dot_S3000x256_S256x256_S3000x256_1_0_0_1_n_n.lhsBatch by decide), dif_pos (show (0 : Fin S3000x256.rank) ∈ dot_S3000x256_S256x256_S3000x256_1_0_0_1_n_n.lhsNonContracting by decide)]
  rfl
theorem lhs_hid_1 (i : S3000x256.Idx) (q : dot_S3000x256_S256x256_S3000x256_1_0_0_1_n_n.contr.Idx) :
    (dot_S3000x256_S256x256_S3000x256_1_0_0_1_n_n.lhsIdx i q 1).val = (q ⟨0, by decide⟩).val :=
  dot_S3000x256_S256x256_S3000x256_1_0_0_1_n_n.lhsIdx_val_of_single rfl i q
theorem rhs_hid_0 (i : S3000x256.Idx) (q : dot_S3000x256_S256x256_S3000x256_1_0_0_1_n_n.contr.Idx) :
    (dot_S3000x256_S256x256_S3000x256_1_0_0_1_n_n.rhsIdx i q 0).val = (q ⟨0, by decide⟩).val :=
  dot_S3000x256_S256x256_S3000x256_1_0_0_1_n_n.rhsIdx_val_of_single rfl i q
theorem rhs_hid_1 (i : S3000x256.Idx) (q : dot_S3000x256_S256x256_S3000x256_1_0_0_1_n_n.contr.Idx) :
    (dot_S3000x256_S256x256_S3000x256_1_0_0_1_n_n.rhsIdx i q 1).val = (i 1).val := by
  unfold DotDims.rhsIdx
  rw [dif_neg (show ¬(1 : Fin S256x256.rank) ∈ dot_S3000x256_S256x256_S3000x256_1_0_0_1_n_n.rhsBatch by decide), dif_pos (show (1 : Fin S256x256.rank) ∈ dot_S3000x256_S256x256_S3000x256_1_0_0_1_n_n.rhsNonContracting by decide)]
  rfl

/-- A tile of 3000 rows times a 256 x 256 matrix, at (row p, column j). -/
theorem matmul_hid_apply (a : FVec Ideal S3000x256 .bf16) (w : FVec Ideal S256x256 .bf16) (p : Fin 3000) (j : Fin 256) :
    matmul dot_S3000x256_S256x256_S3000x256_1_0_0_1_n_n none a w (constant (F := Ideal) S3000x256 .f32 0x00000000#32) (ix2 p j)
      = ∑ k : Fin 256, a (ix2 p k) * w (ix2 k j) := by
  refine (Ideal.matmul_constant_zero_apply dot_S3000x256_S256x256_S3000x256_1_0_0_1_n_n none a w (ix2 p j)).trans ?_
  rw [← Equiv.sum_comp (ValueIdx.contrEquiv1 dot_S3000x256_S256x256_S3000x256_1_0_0_1_n_n 256 rfl rfl).symm]
  refine Finset.sum_congr rfl fun k _ => ?_
  have hk := ValueIdx.contrEquiv1_symm_val dot_S3000x256_S256x256_S3000x256_1_0_0_1_n_n 256 rfl rfl k
  have el : dot_S3000x256_S256x256_S3000x256_1_0_0_1_n_n.lhsIdx (ix2 p j) ((ValueIdx.contrEquiv1 dot_S3000x256_S256x256_S3000x256_1_0_0_1_n_n 256 rfl rfl).symm k) = ix2 p k := funext fun a => Fin.ext (by
    match a with
    | ⟨0, _⟩ => exact lhs_hid_0 _ _
    | ⟨1, _⟩ => exact (lhs_hid_1 _ _).trans hk)
  have er : dot_S3000x256_S256x256_S3000x256_1_0_0_1_n_n.rhsIdx (ix2 p j) ((ValueIdx.contrEquiv1 dot_S3000x256_S256x256_S3000x256_1_0_0_1_n_n 256 rfl rfl).symm k) = ix2 k j := funext fun a => Fin.ext (by
    match a with
    | ⟨0, _⟩ => exact (rhs_hid_0 _ _).trans hk
    | ⟨1, _⟩ => exact rhs_hid_1 _ _)
  rw [el, er]

theorem lhs_out_0 (i : S3000x10.Idx) (q : dot_S3000x256_S256x10_S3000x10_1_0_0_1_n_n.contr.Idx) :
    (dot_S3000x256_S256x10_S3000x10_1_0_0_1_n_n.lhsIdx i q 0).val = (i 0).val := by
  unfold DotDims.lhsIdx
  rw [dif_neg (show ¬(0 : Fin S3000x256.rank) ∈ dot_S3000x256_S256x10_S3000x10_1_0_0_1_n_n.lhsBatch by decide), dif_pos (show (0 : Fin S3000x256.rank) ∈ dot_S3000x256_S256x10_S3000x10_1_0_0_1_n_n.lhsNonContracting by decide)]
  rfl
theorem lhs_out_1 (i : S3000x10.Idx) (q : dot_S3000x256_S256x10_S3000x10_1_0_0_1_n_n.contr.Idx) :
    (dot_S3000x256_S256x10_S3000x10_1_0_0_1_n_n.lhsIdx i q 1).val = (q ⟨0, by decide⟩).val :=
  dot_S3000x256_S256x10_S3000x10_1_0_0_1_n_n.lhsIdx_val_of_single rfl i q
theorem rhs_out_0 (i : S3000x10.Idx) (q : dot_S3000x256_S256x10_S3000x10_1_0_0_1_n_n.contr.Idx) :
    (dot_S3000x256_S256x10_S3000x10_1_0_0_1_n_n.rhsIdx i q 0).val = (q ⟨0, by decide⟩).val :=
  dot_S3000x256_S256x10_S3000x10_1_0_0_1_n_n.rhsIdx_val_of_single rfl i q
theorem rhs_out_1 (i : S3000x10.Idx) (q : dot_S3000x256_S256x10_S3000x10_1_0_0_1_n_n.contr.Idx) :
    (dot_S3000x256_S256x10_S3000x10_1_0_0_1_n_n.rhsIdx i q 1).val = (i 1).val := by
  unfold DotDims.rhsIdx
  rw [dif_neg (show ¬(1 : Fin S256x10.rank) ∈ dot_S3000x256_S256x10_S3000x10_1_0_0_1_n_n.rhsBatch by decide), dif_pos (show (1 : Fin S256x10.rank) ∈ dot_S3000x256_S256x10_S3000x10_1_0_0_1_n_n.rhsNonContracting by decide)]
  rfl

/-- A tile of 3000 rows times a 256 x 10 matrix, at (row p, class j). -/
theorem matmul_out_apply (a : FVec Ideal S3000x256 .bf16) (w : FVec Ideal S256x10 .bf16) (p : Fin 3000) (j : Fin 10) :
    matmul dot_S3000x256_S256x10_S3000x10_1_0_0_1_n_n none a w (constant (F := Ideal) S3000x10 .f32 0x00000000#32) (ix2 p j)
      = ∑ k : Fin 256, a (ix2 p k) * w (ix2 k j) := by
  refine (Ideal.matmul_constant_zero_apply dot_S3000x256_S256x10_S3000x10_1_0_0_1_n_n none a w (ix2 p j)).trans ?_
  rw [← Equiv.sum_comp (ValueIdx.contrEquiv1 dot_S3000x256_S256x10_S3000x10_1_0_0_1_n_n 256 rfl rfl).symm]
  refine Finset.sum_congr rfl fun k _ => ?_
  have hk := ValueIdx.contrEquiv1_symm_val dot_S3000x256_S256x10_S3000x10_1_0_0_1_n_n 256 rfl rfl k
  have el : dot_S3000x256_S256x10_S3000x10_1_0_0_1_n_n.lhsIdx (ix2 p j) ((ValueIdx.contrEquiv1 dot_S3000x256_S256x10_S3000x10_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S3000x256_S256x10_S3000x10_1_0_0_1_n_n.rhsIdx (ix2 p j) ((ValueIdx.contrEquiv1 dot_S3000x256_S256x10_S3000x10_1_0_0_1_n_n 256 rfl rfl).symm k) = ix2 k j := funext fun a => Fin.ext (by
    match a with
    | ⟨0, _⟩ => exact (rhs_out_0 _ _).trans hk
    | ⟨1, _⟩ => exact rhs_out_1 _ _)
  rw [el, er]

/-! ## The kernel's layers on a tile, at an index

A layer is a contraction into a zero accumulator plus the bias row broadcast down the tile; a rectified layer then takes
the maximum with a zero splat. The operands are given through what they hold at each (row, column). -/

/-- A bias row broadcast down a tile of 256 columns reads the row's entry of that column. -/
theorem bias_hid_apply (b : FVec Ideal S1x256 .f32) (p : Fin 3000) (j : Fin 256) :
    broadcastTo S3000x256 b broadcasts_S1x256_S3000x256 (ix2 p j) = b (ix2 0 j) :=
  broadcastTo_apply b broadcasts_S1x256_S3000x256 (ix2 p j) (ix2 0 j)
    (fun a => by match a with | ⟨0, _⟩ => rfl | ⟨1, _⟩ => rfl)

/-- A bias row broadcast down a tile of 10 columns reads the row's entry of that column. -/
theorem bias_out_apply (b : FVec Ideal S1x10 .f32) (p : Fin 3000) (j : Fin 10) :
    broadcastTo S3000x10 b broadcasts_S1x10_S3000x10 (ix2 p j) = b (ix2 0 j) :=
  broadcastTo_apply b broadcasts_S1x10_S3000x10 (ix2 p j) (ix2 0 j)
    (fun a => by match a with | ⟨0, _⟩ => rfl | ⟨1, _⟩ => rfl)

/-- A rectified layer of 256 columns on a tile is the specification's rectified layer of what its operands hold. -/
theorem rect_hid_apply (a : FVec Ideal S3000x256 .bf16) (w : FVec Ideal S256x256 .bf16) (b : FVec Ideal S1x256 .f32)
    (A : Fin 3000 → Fin 256 → EReal) (W : Fin 256 → Fin 256 → EReal) (B : Fin 256 → EReal)
    (ha : ∀ n k, a (ix2 n k) = A n k) (hw : ∀ k j, w (ix2 k j) = W k j) (hb : ∀ j, b (ix2 0 j) = B j)
    (p : Fin 3000) (j : Fin 256) :
    maximumf (addf (matmul dot_S3000x256_S256x256_S3000x256_1_0_0_1_n_n none a w (constant (F := Ideal) S3000x256 .f32 0x00000000#32))
        (broadcastTo S3000x256 b broadcasts_S1x256_S3000x256))
      (broadcast S3000x256 (Scalar.ofBits (F := Ideal) .f32 0x00000000#32)) (ix2 p j) = Spec.rlayer A W B p j := by
  show max (matmul dot_S3000x256_S256x256_S3000x256_1_0_0_1_n_n none a w (constant (F := Ideal) S3000x256 .f32 0x00000000#32) (ix2 p j)
      + broadcastTo S3000x256 b broadcasts_S1x256_S3000x256 (ix2 p j)) (Ideal.ofBits .f32 0x00000000#32) = _
  rw [matmul_hid_apply, bias_hid_apply, Ideal.ofBits_zero_f32, hb]
  unfold Spec.rlayer Spec.layer
  exact congrArg (fun s => max (s + B j) 0) (Finset.sum_congr rfl fun k _ => by rw [ha, hw])

/-- The last layer, of 10 columns, on a tile is the specification's layer of what its operands hold. -/
theorem dense_out_apply (a : FVec Ideal S3000x256 .bf16) (w : FVec Ideal S256x10 .bf16) (b : FVec Ideal S1x10 .f32)
    (A : Fin 3000 → Fin 256 → EReal) (W : Fin 256 → Fin 10 → EReal) (B : Fin 10 → EReal)
    (ha : ∀ n k, a (ix2 n k) = A n k) (hw : ∀ k j, w (ix2 k j) = W k j) (hb : ∀ j, b (ix2 0 j) = B j)
    (p : Fin 3000) (q : Fin 10) :
    addf (matmul dot_S3000x256_S256x10_S3000x10_1_0_0_1_n_n none a w (constant (F := Ideal) S3000x10 .f32 0x00000000#32))
        (broadcastTo S3000x10 b broadcasts_S1x10_S3000x10) (ix2 p q) = Spec.layer A W B p q := by
  show matmul dot_S3000x256_S256x10_S3000x10_1_0_0_1_n_n none a w (constant (F := Ideal) S3000x10 .f32 0x00000000#32) (ix2 p q)
      + broadcastTo S3000x10 b broadcasts_S1x10_S3000x10 (ix2 p q) = _
  rw [matmul_out_apply, bias_out_apply, hb]
  unfold Spec.layer
  exact congrArg (fun s => s + B q) (Finset.sum_congr rfl fun k _ => by rw [ha, hw])

/-- The second network's first layer on a tile: two contractions added, then the bias and the maximum with zero. -/
theorem split_hid_apply (a pa : FVec Ideal S3000x256 .bf16) (w pw : FVec Ideal S256x256 .bf16) (b : FVec Ideal S1x256 .f32)
    (A PA : Fin 3000 → Fin 256 → EReal) (W PW : Fin 256 → Fin 256 → EReal) (B : Fin 256 → EReal)
    (ha : ∀ n k, a (ix2 n k) = A n k) (hpa : ∀ n k, pa (ix2 n k) = PA n k)
    (hw : ∀ k j, w (ix2 k j) = W k j) (hpw : ∀ k j, pw (ix2 k j) = PW k j) (hb : ∀ j, b (ix2 0 j) = B j)
    (p : Fin 3000) (j : Fin 256) :
    maximumf (addf (addf (matmul dot_S3000x256_S256x256_S3000x256_1_0_0_1_n_n none a w (constant (F := Ideal) S3000x256 .f32 0x00000000#32))
          (matmul dot_S3000x256_S256x256_S3000x256_1_0_0_1_n_n none pa pw (constant (F := Ideal) S3000x256 .f32 0x00000000#32)))
        (broadcastTo S3000x256 b broadcasts_S1x256_S3000x256))
      (broadcast S3000x256 (Scalar.ofBits (F := Ideal) .f32 0x00000000#32)) (ix2 p j) = Spec.splitHidden A PA W PW B p j := by
  show max ((matmul dot_S3000x256_S256x256_S3000x256_1_0_0_1_n_n none a w (constant (F := Ideal) S3000x256 .f32 0x00000000#32) (ix2 p j)
      + matmul dot_S3000x256_S256x256_S3000x256_1_0_0_1_n_n none pa pw (constant (F := Ideal) S3000x256 .f32 0x00000000#32) (ix2 p j))
      + broadcastTo S3000x256 b broadcasts_S1x256_S3000x256 (ix2 p j)) (Ideal.ofBits .f32 0x00000000#32) = _
  rw [matmul_hid_apply, matmul_hid_apply, bias_hid_apply, Ideal.ofBits_zero_f32, hb]
  unfold Spec.splitHidden
  rw [Finset.sum_congr rfl fun k _ => show a (ix2 p k) * w (ix2 k j) = A p k * W k j by rw [ha, hw],
    Finset.sum_congr rfl fun k _ => show pa (ix2 p k) * pw (ix2 k j) = PA p k * PW k j by rw [hpa, hpw]]

/-! ## The three payloads at an index, over a tile's blocks

The narrowing format changes are the identity on extended reals, and a shape cast to the same shape is the identity. -/

/-- The first network's scores on a tile: the specification's network over the tile's 3000 rows. -/
theorem scores_h_apply (x0 : Vec Ideal S3000x256 .f32) (x2 : Vec Ideal S256x256 .f32) (x3 : Vec Ideal S1x256 .f32)
    (x4 : Vec Ideal S256x256 .f32) (x5 : Vec Ideal S1x256 .f32) (x6 : Vec Ideal S256x10 .f32) (x7 : Vec Ideal S1x10 .f32)
    (p : Fin 3000) (q : Fin 10) :
    k0_pay5 (F := Ideal) x0 x2 x3 x4 x5 x6 x7 (ix2 p q)
      = Spec.hNet (fun n k => x0 (ix2 n k)) (fun k j => x2 (ix2 k j)) (fun j => x3 (ix2 0 j))
          (fun k j => x4 (ix2 k j)) (fun j => x5 (ix2 0 j)) (fun k j => x6 (ix2 k j)) (fun j => x7 (ix2 0 j)) p q := by
  unfold k0_pay5 k0_pay3 Spec.hNet
  dsimp only
  refine dense_out_apply _ _ _ _ _ _ (fun n k => ?_) (fun k j => rfl)
    (fun j => congrFun (shapeCast_self x7 shapeCasts_S1x10_S1x10) (ix2 0 j)) p q
  refine (truncf_apply _ bitsLt_bf16_f32 (ix2 n k)).trans ?_
  refine rect_hid_apply _ _ _ _ _ _ (fun n k => ?_) (fun k j => rfl)
    (fun j => congrFun (shapeCast_self x5 shapeCasts_S1x256_S1x256) (ix2 0 j)) n k
  refine (truncf_apply _ bitsLt_bf16_f32 (ix2 n k)).trans ?_
  exact rect_hid_apply _ _ _ _ _ _ (fun n k => rfl) (fun k j => rfl)
    (fun j => congrFun (shapeCast_self x3 shapeCasts_S1x256_S1x256) (ix2 0 j)) n k

/-- The second network's scores on a tile, from the own features and the pooled features already in the narrow format
    and the first half of the weights likewise: the specification's network over the tile's 3000 rows. -/
theorem scores_theta_apply (v1 v3 : FVec Ideal S3000x256 .bf16) (v33 : FVec Ideal S256x256 .bf16)
    (v34 : Vec Ideal S256x256 .f32) (v40 : Vec Ideal S1x256 .f32) (v47 : Vec Ideal S256x10 .f32) (v50 : Vec Ideal S1x10 .f32)
    (p : Fin 3000) (q : Fin 10) :
    k0_pay1 (F := Ideal) v1 v3 v33 v34 v40 v47 v50 (ix2 p q)
      = Spec.thetaNet (fun n k => v1 (ix2 n k)) (fun n k => v3 (ix2 n k)) (fun k j => v33 (ix2 k j))
          (fun k j => v34 (ix2 k j)) (fun j => v40 (ix2 0 j)) (fun k j => v47 (ix2 k j)) (fun j => v50 (ix2 0 j)) p q := by
  unfold k0_pay1 Spec.thetaNet
  refine dense_out_apply _ _ _ _ _ _ (fun n k => ?_) (fun k j => rfl)
    (fun j => congrFun (shapeCast_self v50 shapeCasts_S1x10_S1x10) (ix2 0 j)) p q
  refine (truncf_apply _ bitsLt_bf16_f32 (ix2 n k)).trans ?_
  exact split_hid_apply _ _ _ _ _ _ _ _ _ _ (fun n k => rfl) (fun n k => rfl) (fun k j => rfl)
    (fun k j => (truncf_apply _ bitsLt_bf16_f32 (ix2 k j)).trans (congrFun (shapeCast_self v34 shapeCasts_S256x256_S256x256) (ix2 k j)))
    (fun j => congrFun (shapeCast_self v40 shapeCasts_S1x256_S1x256) (ix2 0 j)) n k

/-- The third output on a tile is the product of the other two, entry by entry. -/
theorem scores_prod_apply (v1 v3 : FVec Ideal S3000x256 .bf16) (v30 : FVec Ideal S3000x10 .f32) (v33 : FVec Ideal S256x256 .bf16)
    (v34 : Vec Ideal S256x256 .f32) (v40 : Vec Ideal S1x256 .f32) (v47 : Vec Ideal S256x10 .f32) (v50 : Vec Ideal S1x10 .f32)
    (p : Fin 3000) (q : Fin 10) :
    k0_pay2 (F := Ideal) v1 v3 v30 v33 v34 v40 v47 v50 (ix2 p q)
      = v30 (ix2 p q) * k0_pay1 (F := Ideal) v1 v3 v33 v34 v40 v47 v50 (ix2 p q) := by
  unfold k0_pay2
  rfl

/-- The own features in the narrow format hold what the features hold. -/
theorem narrow_x_apply (x0 : Vec Ideal S3000x256 .f32) (n : Fin 3000) (k : Fin 256) :
    k0_pay3 (F := Ideal) x0 (ix2 n k) = x0 (ix2 n k) := by
  unfold k0_pay3
  rfl

/-- The pooled features, cast to their own shape, hold what they held. -/
theorem same_pb_apply (x1 : Vec Ideal S3000x256 .bf16) (n : Fin 3000) (k : Fin 256) :
    k0_pay4 (F := Ideal) x1 (ix2 n k) = x1 (ix2 n k) := by
  unfold k0_pay4
  exact congrFun (shapeCast_self x1 shapeCasts_S3000x256_S3000x256) (ix2 n k)

/-- The first half of the second network's weights in the narrow format holds what the weights hold. -/
theorem narrow_wx_apply (x8 : Vec Ideal S256x256 .f32) (k : Fin 256) (j : Fin 256) :
    k0_pay6 (F := Ideal) x8 (ix2 k j) = x8 (ix2 k j) := by
  unfold k0_pay6
  exact (truncf_apply _ bitsLt_bf16_f32 (ix2 k j)).trans (congrFun (shapeCast_self x8 shapeCasts_S256x256_S256x256) (ix2 k j))

/-! ## The windows' index maps, decided over the 100 grid points

The node arrays and the three outputs move one block of 3000 rows per point; the weights and biases stay at block (0, 0). -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows13 : ∀ t : Fin cfg0.N, win0_13.index t (0 : Fin 2) = t.val ∧ win0_13.index t (1 : Fin 2) = 0 :=
  (by decide +kernel : ∀ t : Fin grid0.N, _)
theorem idx_rows14 : ∀ t : Fin cfg0.N, win0_14.index t (0 : Fin 2) = t.val ∧ win0_14.index t (1 : Fin 2) = 0 :=
  (by decide +kernel : ∀ t : Fin grid0.N, _)
theorem idx_rows15 : ∀ t : Fin cfg0.N, win0_15.index t (0 : Fin 2) = t.val ∧ win0_15.index t (1 : Fin 2) = 0 :=
  (by decide +kernel : ∀ t : Fin grid0.N, _)
theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)
theorem idx_whole11 : ∀ t : Fin cfg0.N, win0_11.index t (0 : Fin 2) = 0 ∧ win0_11.index t (1 : Fin 2) = 0 :=
  (by decide +kernel : ∀ t : Fin grid0.N, _)
theorem idx_whole12 : ∀ t : Fin cfg0.N, win0_12.index t (0 : Fin 2) = 0 ∧ win0_12.index t (1 : Fin 2) = 0 :=
  (by decide +kernel : ∀ t : Fin grid0.N, _)

/-! ## The tile's blocks at a point, at their literal types, and what they hold -/

abbrev bX (c : Dev nD) (t : Fin cfg0.N) : Vec Ideal S3000x256 .f32 := iblk0 V c 0 t
abbrev bPB (c : Dev nD) (t : Fin cfg0.N) : Vec Ideal S3000x256 .bf16 := iblk0 V c 1 t
abbrev bHW0 (c : Dev nD) (t : Fin cfg0.N) : Vec Ideal S256x256 .f32 := iblk0 V c 2 t
abbrev bHB0 (c : Dev nD) (t : Fin cfg0.N) : Vec Ideal S1x256 .f32 := iblk0 V c 3 t
abbrev bHW1 (c : Dev nD) (t : Fin cfg0.N) : Vec Ideal S256x256 .f32 := iblk0 V c 4 t
abbrev bHB1 (c : Dev nD) (t : Fin cfg0.N) : Vec Ideal S1x256 .f32 := iblk0 V c 5 t
abbrev bHW2 (c : Dev nD) (t : Fin cfg0.N) : Vec Ideal S256x10 .f32 := iblk0 V c 6 t
abbrev bHB2 (c : Dev nD) (t : Fin cfg0.N) : Vec Ideal S1x10 .f32 := iblk0 V c 7 t
abbrev bTWx (c : Dev nD) (t : Fin cfg0.N) : Vec Ideal S256x256 .f32 := iblk0 V c 8 t
abbrev bTWp (c : Dev nD) (t : Fin cfg0.N) : Vec Ideal S256x256 .f32 := iblk0 V c 9 t
abbrev bTB0 (c : Dev nD) (t : Fin cfg0.N) : Vec Ideal S1x256 .f32 := iblk0 V c 10 t
abbrev bTW1 (c : Dev nD) (t : Fin cfg0.N) : Vec Ideal S256x10 .f32 := iblk0 V c 11 t
abbrev bTB1 (c : Dev nD) (t : Fin cfg0.N) : Vec Ideal S1x10 .f32 := iblk0 V c 12 t

/-- Block t of window 0 is rows 3000 t .. 3000 t + 2999 of its array. -/
theorem bX_apply (c : Dev nD) (t : Fin cfg0.N) (p : Fin 3000) (k : Fin 256) (r : Fin 300000)
    (hr : r.val = 3000 * t.val + p.val) : bX V c t (ix2 p k) = aX V c (ix2 r k) := by
  obtain ⟨e0, e1⟩ := idx_rows0 t
  show aX V c (((cfg0.win 0).blk t).view.emb (ix2 p k)) = aX V c (ix2 r k)
  refine congrArg (aX V c) (funext fun a => Fin.ext ?_)
  match a with
  | ⟨0, _⟩ => show win0_0.index t (0 : Fin 2) * 3000 + 1 * p.val = r.val; omega
  | ⟨1, _⟩ => show win0_0.index t (1 : Fin 2) * 256 + 1 * k.val = k.val; omega

/-- Block t of window 1 is rows 3000 t .. 3000 t + 2999 of its array. -/
theorem bPB_apply (c : Dev nD) (t : Fin cfg0.N) (p : Fin 3000) (k : Fin 256) (r : Fin 300000)
    (hr : r.val = 3000 * t.val + p.val) : bPB V c t (ix2 p k) = aPB V c (ix2 r k) := by
  obtain ⟨e0, e1⟩ := idx_rows1 t
  show aPB V c (((cfg0.win 1).blk t).view.emb (ix2 p k)) = aPB V c (ix2 r k)
  refine congrArg (aPB V c) (funext fun a => Fin.ext ?_)
  match a with
  | ⟨0, _⟩ => show win0_1.index t (0 : Fin 2) * 3000 + 1 * p.val = r.val; omega
  | ⟨1, _⟩ => show win0_1.index t (1 : Fin 2) * 256 + 1 * k.val = k.val; omega

/-- Window 2's block at every point is its whole array. -/
theorem bHW0_eq (c : Dev nD) (t : Fin cfg0.N) : bHW0 V c t = aHW0 V c := by
  obtain ⟨e0, e1⟩ := idx_whole2 t
  refine funext fun (y : S256x256.Idx) => ?_
  show aHW0 V c (((cfg0.win 2).blk t).view.emb y) = aHW0 V c y
  refine congrArg (aHW0 V c) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- Window 3's block at every point is its whole array. -/
theorem bHB0_eq (c : Dev nD) (t : Fin cfg0.N) : bHB0 V c t = aHB0 V c := by
  obtain ⟨e0, e1⟩ := idx_whole3 t
  refine funext fun (y : S1x256.Idx) => ?_
  show aHB0 V c (((cfg0.win 3).blk t).view.emb y) = aHB0 V c y
  refine congrArg (aHB0 V c) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 4's block at every point is its whole array. -/
theorem bHW1_eq (c : Dev nD) (t : Fin cfg0.N) : bHW1 V c t = aHW1 V c := by
  obtain ⟨e0, e1⟩ := idx_whole4 t
  refine funext fun (y : S256x256.Idx) => ?_
  show aHW1 V c (((cfg0.win 4).blk t).view.emb y) = aHW1 V c y
  refine congrArg (aHW1 V c) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- Window 5's block at every point is its whole array. -/
theorem bHB1_eq (c : Dev nD) (t : Fin cfg0.N) : bHB1 V c t = aHB1 V c := by
  obtain ⟨e0, e1⟩ := idx_whole5 t
  refine funext fun (y : S1x256.Idx) => ?_
  show aHB1 V c (((cfg0.win 5).blk t).view.emb y) = aHB1 V c y
  refine congrArg (aHB1 V c) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6's block at every point is its whole array. -/
theorem bHW2_eq (c : Dev nD) (t : Fin cfg0.N) : bHW2 V c t = aHW2 V c := by
  obtain ⟨e0, e1⟩ := idx_whole6 t
  refine funext fun (y : S256x10.Idx) => ?_
  show aHW2 V c (((cfg0.win 6).blk t).view.emb y) = aHW2 V c y
  refine congrArg (aHW2 V c) (funext fun a => Fin.ext ?_)
  match a with
  | ⟨0, _⟩ => show win0_6.index t (0 : Fin 2) * 256 + 1 * (y 0).val = (y 0).val; omega
  | ⟨1, _⟩ => show win0_6.index t (1 : Fin 2) * 10 + 1 * (y 1).val = (y 1).val; omega

/-- Window 7's block at every point is its whole array. -/
theorem bHB2_eq (c : Dev nD) (t : Fin cfg0.N) : bHB2 V c t = aHB2 V c := by
  obtain ⟨e0, e1⟩ := idx_whole7 t
  refine funext fun (y : S1x10.Idx) => ?_
  show aHB2 V c (((cfg0.win 7).blk t).view.emb y) = aHB2 V c y
  refine congrArg (aHB2 V c) (funext fun a => Fin.ext ?_)
  match a with
  | ⟨0, _⟩ => show win0_7.index t (0 : Fin 2) * 1 + 1 * (y 0).val = (y 0).val; omega
  | ⟨1, _⟩ => show win0_7.index t (1 : Fin 2) * 10 + 1 * (y 1).val = (y 1).val; omega

/-- Window 8's block at every point is its whole array. -/
theorem bTWx_eq (c : Dev nD) (t : Fin cfg0.N) : bTWx V c t = aTWx V c := by
  obtain ⟨e0, e1⟩ := idx_whole8 t
  refine funext fun (y : S256x256.Idx) => ?_
  show aTWx V c (((cfg0.win 8).blk t).view.emb y) = aTWx V c y
  refine congrArg (aTWx V c) (funext fun a => Fin.ext ?_)
  match a with
  | ⟨0, _⟩ => show win0_8.index t (0 : Fin 2) * 256 + 1 * (y 0).val = (y 0).val; omega
  | ⟨1, _⟩ => show win0_8.index t (1 : Fin 2) * 256 + 1 * (y 1).val = (y 1).val; omega

/-- Window 9's block at every point is its whole array. -/
theorem bTWp_eq (c : Dev nD) (t : Fin cfg0.N) : bTWp V c t = aTWp V c := by
  obtain ⟨e0, e1⟩ := idx_whole9 t
  refine funext fun (y : S256x256.Idx) => ?_
  show aTWp V c (((cfg0.win 9).blk t).view.emb y) = aTWp V c y
  refine congrArg (aTWp V c) (funext fun a => Fin.ext ?_)
  match a with
  | ⟨0, _⟩ => show win0_9.index t (0 : Fin 2) * 256 + 1 * (y 0).val = (y 0).val; omega
  | ⟨1, _⟩ => show win0_9.index t (1 : Fin 2) * 256 + 1 * (y 1).val = (y 1).val; omega

/-- Window 10's block at every point is its whole array. -/
theorem bTB0_eq (c : Dev nD) (t : Fin cfg0.N) : bTB0 V c t = aTB0 V c := by
  obtain ⟨e0, e1⟩ := idx_whole10 t
  refine funext fun (y : S1x256.Idx) => ?_
  show aTB0 V c (((cfg0.win 10).blk t).view.emb y) = aTB0 V c y
  refine congrArg (aTB0 V c) (funext fun a => Fin.ext ?_)
  match a with
  | ⟨0, _⟩ => show win0_10.index t (0 : Fin 2) * 1 + 1 * (y 0).val = (y 0).val; omega
  | ⟨1, _⟩ => show win0_10.index t (1 : Fin 2) * 256 + 1 * (y 1).val = (y 1).val; omega

/-- Window 11's block at every point is its whole array. -/
theorem bTW1_eq (c : Dev nD) (t : Fin cfg0.N) : bTW1 V c t = aTW1 V c := by
  obtain ⟨e0, e1⟩ := idx_whole11 t
  refine funext fun (y : S256x10.Idx) => ?_
  show aTW1 V c (((cfg0.win 11).blk t).view.emb y) = aTW1 V c y
  refine congrArg (aTW1 V c) (funext fun a => Fin.ext ?_)
  match a with
  | ⟨0, _⟩ => show win0_11.index t (0 : Fin 2) * 256 + 1 * (y 0).val = (y 0).val; omega
  | ⟨1, _⟩ => show win0_11.index t (1 : Fin 2) * 10 + 1 * (y 1).val = (y 1).val; omega

/-- Window 12's block at every point is its whole array. -/
theorem bTB1_eq (c : Dev nD) (t : Fin cfg0.N) : bTB1 V c t = aTB1 V c := by
  obtain ⟨e0, e1⟩ := idx_whole12 t
  refine funext fun (y : S1x10.Idx) => ?_
  show aTB1 V c (((cfg0.win 12).blk t).view.emb y) = aTB1 V c y
  refine congrArg (aTB1 V c) (funext fun a => Fin.ext ?_)
  match a with
  | ⟨0, _⟩ => show win0_12.index t (0 : Fin 2) * 1 + 1 * (y 0).val = (y 0).val; omega
  | ⟨1, _⟩ => show win0_12.index t (1 : Fin 2) * 10 + 1 * (y 1).val = (y 1).val; omega

/-! ## A tile's scores are the array's scores on the tile's rows -/

/-- The first network's payload at point t, at (row p, class q), is the first network at node 3000 t + p. -/
theorem tile_h (c : Dev nD) (t : Fin cfg0.N) (p : Fin 3000) (q : Fin 10) (r : Fin 300000) (hr : r.val = 3000 * t.val + p.val) :
    k0_pay5 (F := Ideal) (bX V c t) (bHW0 V c t) (bHB0 V c t) (bHW1 V c t) (bHB1 V c t) (bHW2 V c t) (bHB2 V c t) (ix2 p q) = hSpec V c r q := by
  refine (scores_h_apply (bX V c t) (bHW0 V c t) (bHB0 V c t) (bHW1 V c t) (bHB1 V c t) (bHW2 V c t) (bHB2 V c t) p q).trans ?_
  rw [bHW0_eq, bHB0_eq, bHW1_eq, bHB1_eq, bHW2_eq, bHB2_eq]
  unfold hSpec
  exact hNet_row _ _ _ _ _ _ _ _ p r (fun k => bX_apply V c t p k r hr) q

/-- The second network's payload at point t, at (row p, class q), is the second network at node 3000 t + p. -/
theorem tile_theta (c : Dev nD) (t : Fin cfg0.N) (p : Fin 3000) (q : Fin 10) (r : Fin 300000) (hr : r.val = 3000 * t.val + p.val) :
    k0_pay1 (F := Ideal) (k0_pay3 (bX V c t)) (k0_pay4 (bPB V c t)) (k0_pay6 (bTWx V c t)) (bTWp V c t) (bTB0 V c t) (bTW1 V c t) (bTB1 V c t) (ix2 p q) = thetaSpec V c r q := by
  refine (scores_theta_apply (k0_pay3 (bX V c t)) (k0_pay4 (bPB V c t)) (k0_pay6 (bTWx V c t)) (bTWp V c t) (bTB0 V c t) (bTW1 V c t) (bTB1 V c t) p q).trans ?_
  rw [bTWp_eq, bTB0_eq, bTW1_eq, bTB1_eq]
  have hwx : (fun (k : Fin 256) (j : Fin 256) => k0_pay6 (F := Ideal) (bTWx V c t) (ix2 k j)) = fun k j => aTWx V c (ix2 k j) :=
    funext fun k => funext fun j => (narrow_wx_apply (bTWx V c t) k j).trans (congrFun (bTWx_eq V c t) (ix2 k j))
  rw [hwx]
  unfold thetaSpec
  exact thetaNet_row _ _ _ _ _ _ _ _ _ p r
    (fun k => (narrow_x_apply (bX V c t) p k).trans (bX_apply V c t p k r hr))
    (fun k => (same_pb_apply (bPB V c t) p k).trans (bPB_apply V c t p k r hr)) q

/-- The third payload at point t, at (row p, class q), is the product of the two networks at node 3000 t + p. -/
theorem tile_prod (c : Dev nD) (t : Fin cfg0.N) (p : Fin 3000) (q : Fin 10) (r : Fin 300000) (hr : r.val = 3000 * t.val + p.val) :
    k0_pay2 (F := Ideal) (k0_pay3 (bX V c t)) (k0_pay4 (bPB V c t)) (k0_pay5 (bX V c t) (bHW0 V c t) (bHB0 V c t) (bHW1 V c t) (bHB1 V c t) (bHW2 V c t) (bHB2 V c t)) (k0_pay6 (bTWx V c t)) (bTWp V c t) (bTB0 V c t) (bTW1 V c t) (bTB1 V c t) (ix2 p q)
      = hSpec V c r q * thetaSpec V c r q := by
  refine (scores_prod_apply (k0_pay3 (bX V c t)) (k0_pay4 (bPB V c t)) (k0_pay5 (bX V c t) (bHW0 V c t) (bHB0 V c t) (bHW1 V c t) (bHB1 V c t) (bHW2 V c t) (bHB2 V c t)) (k0_pay6 (bTWx V c t)) (bTWp V c t) (bTB0 V c t) (bTW1 V c t) (bTB1 V c t) p q).trans ?_
  rw [tile_h V c t p q r hr, tile_theta V c t p q r hr]

/-! ## From blocks to the arrays

Each output's one store fills its staging buffer; point t writes that buffer back as rows 3000 t .. 3000 t + 2999; the
100 points' blocks cover the 300000 rows. -/

theorem hz : (![0, 0] : Fin 2 → Nat) = fun _ => 0 := funext fun a => by fin_cases a <;> rfl

/-- The grid has 100 points. -/
theorem point_lt (t : Fin cfg0.N) : t.val < 100 := lt_of_lt_of_eq t.isLt N_0

/-- What output window 13 ends holding: the first network's scores, node by node. -/
abbrev hArr (c : Dev nD) : Vec Ideal S300000x10 .f32 := fun i => hSpec V c (i 0) (i 1)

/-- What point t writes back to window 13 is block t of that array. -/
theorem flushed13_eq (c : Dev nD) (t : Fin cfg0.N) :
    (dat0 V c).flushed 13 t = ((cfg0.win 13).blk t).view.read (Elt Ideal) (hArr V c) := by
  show (cfg0.win 13).cut (grid0.coords t) ((dat0 V c).after 13 t) = _
  rw [after0_13]
  unfold out0_13
  rw [View.canon_unit_zero hz]
  simp only [View.ld_unit_zero (S := S3000x256) hz, View.ld_unit_zero (S := S256x256) hz, View.ld_unit_zero (S := S1x256) hz, View.ld_unit_zero (S := S256x10) hz, View.ld_unit_zero (S := S1x10) hz]
  obtain ⟨e0, e1⟩ := idx_rows13 t
  have ht := point_lt t
  refine funext fun (y : S3000x10.Idx) => ?_
  obtain ⟨p, q, rfl⟩ : ∃ (p : Fin 3000) (q : Fin 10), y = ix2 p q := ⟨y 0, y 1, eq_ix2 y⟩
  have hemb : ((cfg0.win 13).blk t).view.emb (ix2 p q) = ix2 (⟨3000 * t.val + p.val, by have := p.isLt; omega⟩ : Fin 300000) q :=
    funext fun a => Fin.ext (by
      match a with
      | ⟨0, _⟩ => show win0_13.index t (0 : Fin 2) * 3000 + 1 * p.val = 3000 * t.val + p.val; omega
      | ⟨1, _⟩ => show win0_13.index t (1 : Fin 2) * 10 + 1 * q.val = q.val; omega)
  show k0_pay5 (F := Ideal) (bX V c t) (bHW0 V c t) (bHB0 V c t) (bHW1 V c t) (bHB1 V c t) (bHW2 V c t) (bHB2 V c t) (ix2 p q) = hArr V c (((cfg0.win 13).blk t).view.emb (ix2 p q))
  rw [hemb]
  exact tile_h V c t p q _ rfl

/-- An index of the array is in point t's block of window 13 iff each coordinate is in the block's range on its axis. -/
theorem mem_blk13 (t : Fin cfg0.N) (i : S300000x10.Idx) :
    i ∈ ((cfg0.win 13).blk t).view.set ↔ ∀ a : Fin 2, win0_13.index t a * S3000x10.size a ≤ (i a).val ∧ (i a).val < win0_13.index t a * S3000x10.size a + S3000x10.size a := by
  show i ∈ ((View.whole main_v18_0).slice (win0_13.rect t)).set ↔ _
  rw [View.set_slice_whole, Rect.mem_set_unit]
  exact Iff.rfl

/-- Every row of window 13's array is in the block of the point that is the row's number divided by 3000. -/
theorem cover13 (i : S300000x10.Idx) :
    ∃ t : Fin cfg0.N, (cfg0.win 13).flush t = true ∧ i ∈ ((cfg0.win 13).blk t).view.set := by
  have hi0 : (i 0).val < 300000 := (i 0).isLt
  have hi1 : (i 1).val < 10 := (i 1).isLt
  have hlt : (i 0).val / 3000 < cfg0.N := lt_of_lt_of_eq (by omega : (i 0).val / 3000 < 100) N_0.symm
  refine ⟨⟨(i 0).val / 3000, hlt⟩, flush0_13 _, ?_⟩
  obtain ⟨e0, e1⟩ := idx_rows13 ⟨(i 0).val / 3000, hlt⟩
  have e0' : win0_13.index ⟨(i 0).val / 3000, hlt⟩ (0 : Fin 2) = (i 0).val / 3000 := e0
  rw [mem_blk13]
  intro a
  match a with
  | ⟨0, _⟩ => show win0_13.index ⟨(i 0).val / 3000, hlt⟩ (0 : Fin 2) * 3000 ≤ (i 0).val ∧ (i 0).val < win0_13.index ⟨(i 0).val / 3000, hlt⟩ (0 : Fin 2) * 3000 + 3000; omega
  | ⟨1, _⟩ => show win0_13.index ⟨(i 0).val / 3000, hlt⟩ (1 : Fin 2) * 10 ≤ (i 1).val ∧ (i 1).val < win0_13.index ⟨(i 0).val / 3000, hlt⟩ (1 : Fin 2) * 10 + 10; omega

/-- What output window 14 ends holding: the second network's scores, node by node. -/
abbrev thetaArr (c : Dev nD) : Vec Ideal S300000x10 .f32 := fun i => thetaSpec V c (i 0) (i 1)

/-- What point t writes back to window 14 is block t of that array. -/
theorem flushed14_eq (c : Dev nD) (t : Fin cfg0.N) :
    (dat0 V c).flushed 14 t = ((cfg0.win 14).blk t).view.read (Elt Ideal) (thetaArr V c) := by
  show (cfg0.win 14).cut (grid0.coords t) ((dat0 V c).after 14 t) = _
  rw [after0_14]
  unfold out0_14
  rw [View.canon_unit_zero hz]
  simp only [View.ld_unit_zero (S := S3000x256) hz, View.ld_unit_zero (S := S256x256) hz, View.ld_unit_zero (S := S1x256) hz, View.ld_unit_zero (S := S256x10) hz, View.ld_unit_zero (S := S1x10) hz]
  obtain ⟨e0, e1⟩ := idx_rows14 t
  have ht := point_lt t
  refine funext fun (y : S3000x10.Idx) => ?_
  obtain ⟨p, q, rfl⟩ : ∃ (p : Fin 3000) (q : Fin 10), y = ix2 p q := ⟨y 0, y 1, eq_ix2 y⟩
  have hemb : ((cfg0.win 14).blk t).view.emb (ix2 p q) = ix2 (⟨3000 * t.val + p.val, by have := p.isLt; omega⟩ : Fin 300000) q :=
    funext fun a => Fin.ext (by
      match a with
      | ⟨0, _⟩ => show win0_14.index t (0 : Fin 2) * 3000 + 1 * p.val = 3000 * t.val + p.val; omega
      | ⟨1, _⟩ => show win0_14.index t (1 : Fin 2) * 10 + 1 * q.val = q.val; omega)
  show k0_pay1 (F := Ideal) (k0_pay3 (bX V c t)) (k0_pay4 (bPB V c t)) (k0_pay6 (bTWx V c t)) (bTWp V c t) (bTB0 V c t) (bTW1 V c t) (bTB1 V c t) (ix2 p q) = thetaArr V c (((cfg0.win 14).blk t).view.emb (ix2 p q))
  rw [hemb]
  exact tile_theta V c t p q _ rfl

/-- An index of the array is in point t's block of window 14 iff each coordinate is in the block's range on its axis. -/
theorem mem_blk14 (t : Fin cfg0.N) (i : S300000x10.Idx) :
    i ∈ ((cfg0.win 14).blk t).view.set ↔ ∀ a : Fin 2, win0_14.index t a * S3000x10.size a ≤ (i a).val ∧ (i a).val < win0_14.index t a * S3000x10.size a + S3000x10.size a := by
  show i ∈ ((View.whole main_v18_1).slice (win0_14.rect t)).set ↔ _
  rw [View.set_slice_whole, Rect.mem_set_unit]
  exact Iff.rfl

/-- Every row of window 14's array is in the block of the point that is the row's number divided by 3000. -/
theorem cover14 (i : S300000x10.Idx) :
    ∃ t : Fin cfg0.N, (cfg0.win 14).flush t = true ∧ i ∈ ((cfg0.win 14).blk t).view.set := by
  have hi0 : (i 0).val < 300000 := (i 0).isLt
  have hi1 : (i 1).val < 10 := (i 1).isLt
  have hlt : (i 0).val / 3000 < cfg0.N := lt_of_lt_of_eq (by omega : (i 0).val / 3000 < 100) N_0.symm
  refine ⟨⟨(i 0).val / 3000, hlt⟩, flush0_14 _, ?_⟩
  obtain ⟨e0, e1⟩ := idx_rows14 ⟨(i 0).val / 3000, hlt⟩
  have e0' : win0_14.index ⟨(i 0).val / 3000, hlt⟩ (0 : Fin 2) = (i 0).val / 3000 := e0
  rw [mem_blk14]
  intro a
  match a with
  | ⟨0, _⟩ => show win0_14.index ⟨(i 0).val / 3000, hlt⟩ (0 : Fin 2) * 3000 ≤ (i 0).val ∧ (i 0).val < win0_14.index ⟨(i 0).val / 3000, hlt⟩ (0 : Fin 2) * 3000 + 3000; omega
  | ⟨1, _⟩ => show win0_14.index ⟨(i 0).val / 3000, hlt⟩ (1 : Fin 2) * 10 ≤ (i 1).val ∧ (i 1).val < win0_14.index ⟨(i 0).val / 3000, hlt⟩ (1 : Fin 2) * 10 + 10; omega

/-- What output window 15 ends holding: the product of the two scores, node by node. -/
abbrev prodArr (c : Dev nD) : Vec Ideal S300000x10 .bf16 := fun i => hSpec V c (i 0) (i 1) * thetaSpec V c (i 0) (i 1)

/-- What point t writes back to window 15 is block t of that array. -/
theorem flushed15_eq (c : Dev nD) (t : Fin cfg0.N) :
    (dat0 V c).flushed 15 t = ((cfg0.win 15).blk t).view.read (Elt Ideal) (prodArr V c) := by
  show (cfg0.win 15).cut (grid0.coords t) ((dat0 V c).after 15 t) = _
  rw [after0_15]
  unfold out0_15
  rw [View.canon_unit_zero hz]
  simp only [View.ld_unit_zero (S := S3000x256) hz, View.ld_unit_zero (S := S256x256) hz, View.ld_unit_zero (S := S1x256) hz, View.ld_unit_zero (S := S256x10) hz, View.ld_unit_zero (S := S1x10) hz]
  obtain ⟨e0, e1⟩ := idx_rows15 t
  have ht := point_lt t
  refine funext fun (y : S3000x10.Idx) => ?_
  obtain ⟨p, q, rfl⟩ : ∃ (p : Fin 3000) (q : Fin 10), y = ix2 p q := ⟨y 0, y 1, eq_ix2 y⟩
  have hemb : ((cfg0.win 15).blk t).view.emb (ix2 p q) = ix2 (⟨3000 * t.val + p.val, by have := p.isLt; omega⟩ : Fin 300000) q :=
    funext fun a => Fin.ext (by
      match a with
      | ⟨0, _⟩ => show win0_15.index t (0 : Fin 2) * 3000 + 1 * p.val = 3000 * t.val + p.val; omega
      | ⟨1, _⟩ => show win0_15.index t (1 : Fin 2) * 10 + 1 * q.val = q.val; omega)
  show k0_pay2 (F := Ideal) (k0_pay3 (bX V c t)) (k0_pay4 (bPB V c t)) (k0_pay5 (bX V c t) (bHW0 V c t) (bHB0 V c t) (bHW1 V c t) (bHB1 V c t) (bHW2 V c t) (bHB2 V c t)) (k0_pay6 (bTWx V c t)) (bTWp V c t) (bTB0 V c t) (bTW1 V c t) (bTB1 V c t) (ix2 p q) = prodArr V c (((cfg0.win 15).blk t).view.emb (ix2 p q))
  rw [hemb]
  exact tile_prod V c t p q _ rfl

/-- An index of the array is in point t's block of window 15 iff each coordinate is in the block's range on its axis. -/
theorem mem_blk15 (t : Fin cfg0.N) (i : S300000x10.Idx) :
    i ∈ ((cfg0.win 15).blk t).view.set ↔ ∀ a : Fin 2, win0_15.index t a * S3000x10.size a ≤ (i a).val ∧ (i a).val < win0_15.index t a * S3000x10.size a + S3000x10.size a := by
  show i ∈ ((View.whole main_v18_2).slice (win0_15.rect t)).set ↔ _
  rw [View.set_slice_whole, Rect.mem_set_unit]
  exact Iff.rfl

/-- Every row of window 15's array is in the block of the point that is the row's number divided by 3000. -/
theorem cover15 (i : S300000x10.Idx) :
    ∃ t : Fin cfg0.N, (cfg0.win 15).flush t = true ∧ i ∈ ((cfg0.win 15).blk t).view.set := by
  have hi0 : (i 0).val < 300000 := (i 0).isLt
  have hi1 : (i 1).val < 10 := (i 1).isLt
  have hlt : (i 0).val / 3000 < cfg0.N := lt_of_lt_of_eq (by omega : (i 0).val / 3000 < 100) N_0.symm
  refine ⟨⟨(i 0).val / 3000, hlt⟩, flush0_15 _, ?_⟩
  obtain ⟨e0, e1⟩ := idx_rows15 ⟨(i 0).val / 3000, hlt⟩
  have e0' : win0_15.index ⟨(i 0).val / 3000, hlt⟩ (0 : Fin 2) = (i 0).val / 3000 := e0
  rw [mem_blk15]
  intro a
  match a with
  | ⟨0, _⟩ => show win0_15.index ⟨(i 0).val / 3000, hlt⟩ (0 : Fin 2) * 3000 ≤ (i 0).val ∧ (i 0).val < win0_15.index ⟨(i 0).val / 3000, hlt⟩ (0 : Fin 2) * 3000 + 3000; omega
  | ⟨1, _⟩ => show win0_15.index ⟨(i 0).val / 3000, hlt⟩ (1 : Fin 2) * 10 ≤ (i 1).val ∧ (i 1).val < win0_15.index ⟨(i 0).val / 3000, hlt⟩ (1 : Fin 2) * 10 + 10; omega

/-- Output window 13 (the first network's scores) after the last point. -/
theorem arr13 (c : Dev nD) :
    ((dat0 V c).arrAt 13 cfg0.N : Vec Ideal S300000x10 .f32) = fun i => hSpec V c (i 0) (i 1) :=
  (dat0 V c).arrAt_eq_of_cover 13 (hArr V c) (fun t _ => flushed13_eq V c t) cover13

/-- Output window 14 (the second network's scores) after the last point. -/
theorem arr14 (c : Dev nD) :
    ((dat0 V c).arrAt 14 cfg0.N : Vec Ideal S300000x10 .f32) = fun i => thetaSpec V c (i 0) (i 1) :=
  (dat0 V c).arrAt_eq_of_cover 14 (thetaArr V c) (fun t _ => flushed14_eq V c t) cover14

/-- Output window 15 (the product of the two scores) after the last point. -/
theorem arr15 (c : Dev nD) :
    ((dat0 V c).arrAt 15 cfg0.N : Vec Ideal S300000x10 .bf16) = fun i => hSpec V c (i 0) (i 1) * thetaSpec V c (i 0) (i 1) :=
  (dat0 V c).arrAt_eq_of_cover 15 (prodArr V c) (fun t _ => flushed15_eq V c t) cover15

end Cert.KernelIdeal.R0

end
-- ==== Proof.Region1.lean ====
/-
  Region 1 (the per-graph sum), read off the pipeline's proof data at any entry contents V: its one output block is
  revisited at every grid point, reset at the first and added to afterwards, so after the last point it holds the
  tiles' partial sums added up in order.
-/
import proofs.«427214_j54589034332715_1_alg».proof.Proof.Gen.KernelIdeal.Frame
import proofs.«427214_j54589034332715_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R1

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- The region's input arrays as it finds them, at their literal types: the products and the segment words. -/
abbrev aP (c : Dev nD) : Vec Ideal S300000x10 .bf16 := V c (Pipeline.arrRef spec1 0)
abbrev aB (c : Dev nD) : Vec Ideal S300000x1 .i32 := V c (Pipeline.arrRef spec1 1)

open scoped BigOperators

section Pieces
variable {F : FTy → Type} [FloatOps F]

theorem hz : (![0, 0] : Fin 2 → Nat) = fun _ => 0 := funext fun a => by fin_cases a <;> rfl

/-- At a later point the body leaves, over what the buffer held, the update payload of the point's two blocks:
    its one store covers the buffer, and its loads read the whole buffers. -/
theorem out_B (c : Dev nD) (i : grid1.Coords) (a1 : Memref sig .tc .vmem S3000x10 .bf16) (h1 : a1.IsWhole)
    (a2 : Memref sig .tc .vmem S3000x1 .i32) (h2 : a2.IsWhole) (a3 : Memref sig .tc .vmem S512x10 .f32) (h3 : a3.IsWhole)
    (hc : ¬cond1_0 i) (x0 : Vec F S3000x10 .bf16) (x1 : Vec F S3000x1 .i32) (xo : Vec F S512x10 .f32) :
    out1_B_2 c i a1 h1 a2 h2 a3 h3 hc x0 x1 xo = k1_pay2 x1 x0 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  simp only [View.readAt_eq_ld, h1.read_unread, h2.read_unread, h3.read_unread, View.ld_unit_zero (S := S3000x10) hz,
    View.ld_unit_zero (S := S3000x1) hz, View.ld_unit_zero (S := S512x10) hz]

/-- At the first point the body stores the zero block, reads it back, and leaves the update payload over it: the
    later store covers the buffer, and the load between the two stores reads what the first one wrote. -/
theorem out_A (c : Dev nD) (i : grid1.Coords) (a1 : Memref sig .tc .vmem S3000x10 .bf16) (h1 : a1.IsWhole)
    (a2 : Memref sig .tc .vmem S3000x1 .i32) (h2 : a2.IsWhole) (a3 : Memref sig .tc .vmem S512x10 .f32) (h3 : a3.IsWhole)
    (hc : cond1_0 i) (x0 : Vec F S3000x10 .bf16) (x1 : Vec F S3000x1 .i32) :
    out1_A_2 c i a1 h1 a2 h2 a3 h3 hc x0 x1 = k1_pay2 x1 x0 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S512x10) hz, View.readCov_unit_zero (S := S512x10) _ hz]
  simp only [View.readAt_eq_ld, h1.read_unread, h2.read_unread, View.ld_unit_zero (S := S3000x10) hz,
    View.ld_unit_zero (S := S3000x1) hz, View.ld_unit_zero (S := S512x10) hz]

end Pieces

/-- A 32-bit word read signed is the segment number g (below 512) exactly when it is the word of g. -/
theorem toInt_eq_iff (b : BitVec 32) (g : Nat) (hg : g < 512) : b.toInt = (g : ℤ) ↔ b = BitVec.ofNat 32 g := by
  constructor
  · intro h
    apply BitVec.eq_of_toNat_eq
    rw [BitVec.toNat_ofNat, Nat.mod_eq_of_lt (by omega)]
    have hb := b.isLt
    rw [BitVec.toInt_eq_toNat_cond] at h
    split at h <;> omega
  · intro h
    subst h
    rw [BitVec.toInt_eq_toNat_cond, BitVec.toNat_ofNat, Nat.mod_eq_of_lt (by omega)]
    rw [if_pos (by omega)]

/-- The one-hot entry the kernel builds from a segment word and a column number is the indicator. -/
theorem onehot_eq (b : BitVec 32) (g : Fin 512) :
    (FloatOps.sitofp (F := Ideal) .f32 ((IntOp.cmpi .eq b (BitVec.ofNat 32 g.val)).setWidth 32) : EReal) = Spec.oh b g := by
  unfold Spec.oh
  show ((((IntOp.cmpi .eq b (BitVec.ofNat 32 g.val)).setWidth 32).toInt : ℝ) : EReal) = _
  by_cases h : b = BitVec.ofNat 32 g.val
  · rw [if_pos ((toInt_eq_iff b g.val g.isLt).mpr h)]
    have e : IntOp.cmpi .eq b (BitVec.ofNat 32 g.val) = 1#1 := by
      unfold IntOp.cmpi; rw [h]; simp
    rw [e]
    norm_num
  · rw [if_neg (fun h' => h ((toInt_eq_iff b g.val g.isLt).mp h'))]
    have e : IntOp.cmpi .eq b (BitVec.ofNat 32 g.val) = 0#1 := by
      show BitVec.ofBool (b == BitVec.ofNat 32 g.val) = 0#1
      rw [beq_eq_false_iff_ne.mpr h]; rfl
    rw [e]
    norm_num

/-- The contraction of the one-hot block against the products: axis 0 of both (the tile's 3000 rows). -/
private abbrev DD : DotDims S3000x512 S3000x10 S512x10 := dot_S3000x512_S3000x10_S512x10_0_0_1_1_n_n

theorem lhs0 (j : S512x10.Idx) (q : DD.contr.Idx) : (DD.lhsIdx j q 0).val = (q ⟨0, by decide⟩).val :=
  DD.lhsIdx_val_of_single rfl j q
theorem lhs1 (j : S512x10.Idx) (q : DD.contr.Idx) : (DD.lhsIdx j q 1).val = (j 0).val := by
  unfold DotDims.lhsIdx
  rw [dif_neg (show ¬(1 : Fin S3000x512.rank) ∈ DD.lhsBatch by decide), dif_pos (show (1 : Fin S3000x512.rank) ∈ DD.lhsNonContracting by decide)]
  rfl
theorem rhs0 (j : S512x10.Idx) (q : DD.contr.Idx) : (DD.rhsIdx j q 0).val = (q ⟨0, by decide⟩).val :=
  DD.rhsIdx_val_of_single rfl j q
theorem rhs1 (j : S512x10.Idx) (q : DD.contr.Idx) : (DD.rhsIdx j q 1).val = (j 1).val := by
  unfold DotDims.rhsIdx
  rw [dif_neg (show ¬(1 : Fin S3000x10.rank) ∈ DD.rhsBatch by decide), dif_pos (show (1 : Fin S3000x10.rank) ∈ DD.rhsNonContracting by decide)]
  rfl

/-- The one-hot block the body builds from a tile's segment words: entry (k, g) compares row k's word with g. -/
private abbrev ohv (sb : Vec Ideal S3000x1 .i32) : FVec Ideal S3000x512 .bf16 :=
  truncf .bf16 (sitofp .f32 (extui 32 (cmpi .eq (broadcastTo S3000x512 (shapeCast S3000x1 sb shapeCasts_S3000x1_S3000x1) broadcasts_S3000x1_S3000x512)
    (iota .tc S3000x512 32 [1] iota_S3000x512_d1_w32)) natLt_1_32)) bitsLt_bf16_f32

theorem ohv_apply (sb : Vec Ideal S3000x1 .i32) (k : Fin 3000) (g : Fin 512) :
    ohv sb (ix2 k g) = Spec.oh (sb (ix2 k 0)) g := by
  show FloatOps.sitofp (F := Ideal) .f32 ((IntOp.cmpi .eq
      (broadcastTo S3000x512 (shapeCast S3000x1 sb shapeCasts_S3000x1_S3000x1) broadcasts_S3000x1_S3000x512 (ix2 k g))
      (iota .tc S3000x512 32 [1] iota_S3000x512_d1_w32 (ix2 k g))).setWidth 32) = _
  rw [iota_single_apply, shapeCast_self,
    broadcastTo_apply sb broadcasts_S3000x1_S3000x512 (ix2 k g) (ix2 k 0) (fun a => match a with
      | ⟨0, _⟩ => by show k.val = if (3000 : Nat) = 1 then 0 else k.val; rw [if_neg (by decide)]
      | ⟨1, _⟩ => by show 0 = if (1 : Nat) = 1 then 0 else g.val; rw [if_pos rfl])]
  exact onehot_eq _ g

/-- The update payload at (g, q): what the buffer held, plus the tile's rows weighted by the indicator. -/
theorem pay2_apply (sb : Vec Ideal S3000x1 .i32) (p : Vec Ideal S3000x10 .bf16) (v : Vec Ideal S512x10 .f32) (g : Fin 512) (q : Fin 10) :
    k1_pay2 (F := Ideal) sb p v (ix2 g q) = v (ix2 g q) + ∑ k : Fin 3000, Spec.oh (sb (ix2 k 0)) g * p (ix2 k q) := by
  unfold k1_pay2
  dsimp only
  refine (addf_apply _ _ (ix2 g q)).trans ?_
  refine congrArg₂ (· + ·) (congrFun (shapeCast_self v shapeCasts_S512x10_S512x10) (ix2 g q)) ?_
  refine (Ideal.matmul_constant_zero_apply DD none (ohv sb) _ (ix2 g q)).trans ?_
  rw [← Equiv.sum_comp (ValueIdx.contrEquiv1 DD 3000 rfl rfl).symm]
  refine Finset.sum_congr rfl fun k _ => ?_
  have hk := ValueIdx.contrEquiv1_symm_val DD 3000 rfl rfl k
  have el : DD.lhsIdx (ix2 g q) ((ValueIdx.contrEquiv1 DD 3000 rfl rfl).symm k) = ix2 k g := funext fun a => Fin.ext (by
    match a with
    | ⟨0, _⟩ => exact (lhs0 _ _).trans hk
    | ⟨1, _⟩ => exact lhs1 _ _)
  have er : DD.rhsIdx (ix2 g q) ((ValueIdx.contrEquiv1 DD 3000 rfl rfl).symm k) = ix2 k q := funext fun a => Fin.ext (by
    match a with
    | ⟨0, _⟩ => exact (rhs0 _ _).trans hk
    | ⟨1, _⟩ => exact rhs1 _ _)
  rw [el, er, ohv_apply, shapeCast_self]

/-- The reset payload is zero everywhere. -/
theorem pay1_apply (j : S512x10.Idx) : k1_pay1 (F := Ideal) j = 0 := by
  show Ideal.ofBits .f32 0x00000000#32 = 0
  exact Ideal.ofBits_zero_f32

/-- The ordered sum through tile 0 is tile 0's partial sum; through tile n + 1 it adds that tile's to the sum through n. -/
theorem acc_zero {G C : Nat} (seg : Fin 300000 → BitVec 32) (p : Fin 300000 → Fin C → EReal) (hn : 0 < 100) (g : Fin G) (q : Fin C) :
    Spec.acc seg p 0 hn g q = Spec.part seg p 0 hn g q := rfl
theorem acc_succ {G C : Nat} (seg : Fin 300000 → BitVec 32) (p : Fin 300000 → Fin C → EReal) (n : Nat) (hn : n + 1 < 100) (g : Fin G) (q : Fin C) :
    Spec.acc seg p (n + 1) hn g q = Spec.acc seg p n (Nat.lt_of_succ_lt hn) g q + Spec.part seg p (n + 1) hn g q := rfl

/-- The two input blocks at a point, at their literal types. -/
private abbrev pblk (c : Dev nD) (t : Fin cfg1.N) : Vec Ideal S3000x10 .bf16 := iblk1 V c 0 t
private abbrev sblk (c : Dev nD) (t : Fin cfg1.N) : Vec Ideal S3000x1 .i32 := iblk1 V c 1 t

/-- Both input windows' block index at point t is (t, 0). -/
theorem index1 : ∀ t : Fin cfg1.N, win1_0.index t 0 = t.val ∧ win1_0.index t 1 = 0 ∧ win1_1.index t 0 = t.val ∧ win1_1.index t 1 = 0 :=
  (by decide +kernel : ∀ t : Fin grid1.N, win1_0.index t 0 = t.val ∧ win1_0.index t 1 = 0 ∧ win1_1.index t 0 = t.val ∧ win1_1.index t 1 = 0)

theorem pblk_apply (c : Dev nD) (t : Fin cfg1.N) (ht : t.val < 100) (k : Fin 3000) (q : Fin 10) :
    pblk V c t (ix2 k q) = aP V c (ix2 (Spec.rowOf t.val ht k) q) := by
  show iblk1 V c 0 t (ix2 k q) = _
  unfold iblk1
  rw [View.read_apply]
  show V c (Pipeline.arrRef spec1 0) _ = V c (Pipeline.arrRef spec1 0) _
  congr 1
  funext a
  apply Fin.ext
  match a with
  | ⟨0, _⟩ =>
    show win1_0.index t 0 * 3000 + 1 * k.val = 3000 * t.val + k.val
    rw [(index1 t).1]; omega
  | ⟨1, _⟩ =>
    show win1_0.index t 1 * 10 + 1 * q.val = q.val
    rw [(index1 t).2.1]; omega

theorem sblk_apply (c : Dev nD) (t : Fin cfg1.N) (ht : t.val < 100) (k : Fin 3000) :
    sblk V c t (ix2 k 0) = aB V c (ix2 (Spec.rowOf t.val ht k) 0) := by
  show iblk1 V c 1 t (ix2 k 0) = _
  unfold iblk1
  rw [View.read_apply]
  show V c (Pipeline.arrRef spec1 1) _ = V c (Pipeline.arrRef spec1 1) _
  congr 1
  funext a
  apply Fin.ext
  match a with
  | ⟨0, _⟩ =>
    show win1_1.index t 0 * 3000 + 1 * k.val = 3000 * t.val + k.val
    rw [(index1 t).2.2.1]; omega
  | ⟨1, _⟩ =>
    show win1_1.index t 1 * 1 + 1 * 0 = 0
    rw [(index1 t).2.2.2]

/-- The invariant: after point n the output's buffer holds the tiles' partial sums added up in order through tile n.
    By induction on the point: the first point resets and adds tile 0, every later one adds its tile to what the
    point before left. -/
theorem outsAt_eq (c : Dev nD) (n : ℕ) : ∀ (hn : n < cfg1.N) (hn' : n < 100) (g : Fin 512) (q : Fin 10),
    (outsAt1 V c n hn : Vec Ideal S512x10 .f32) (ix2 g q)
      = Spec.acc (G := 512) (C := 10) (fun e => aB V c (ix2 e 0)) (fun e q => aP V c (ix2 e q)) n hn' g q := by
  induction n with
  | zero =>
    intro hn hn' g q
    have h0 : (⟨0, hn⟩ : Fin cfg1.N).val % 100 = 0 := rfl
    rw [outsAt1_A V c ⟨0, hn⟩ h0]
    refine (congrFun (out_A (F := Ideal) c (grid1.coords ⟨0, hn⟩) (ms1_0 ⟨0, hn⟩) (hs1_0 ⟨0, hn⟩) (ms1_1 ⟨0, hn⟩) (hs1_1 ⟨0, hn⟩)
      (ms1_2 ⟨0, hn⟩) (hs1_2 ⟨0, hn⟩) ((hcond1_0 ⟨0, hn⟩).mpr h0) (pblk V c ⟨0, hn⟩) (sblk V c ⟨0, hn⟩)) (ix2 g q)).trans ?_
    rw [pay2_apply, pay1_apply, zero_add, acc_zero]
    unfold Spec.part
    refine Finset.sum_congr rfl fun k _ => ?_
    rw [sblk_apply V c ⟨0, hn⟩ hn' k, pblk_apply V c ⟨0, hn⟩ hn' k q]
  | succ n ih =>
    intro hn hn' g q
    have hB : ¬(⟨n + 1, hn⟩ : Fin cfg1.N).val % 100 = 0 := by dsimp only; omega
    rw [outsAt1_B V c ⟨n + 1, hn⟩ hB]
    refine (congrFun (out_B (F := Ideal) c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (fun h => hB ((hcond1_0 ⟨n + 1, hn⟩).mp h)) (pblk V c ⟨n + 1, hn⟩) (sblk V c ⟨n + 1, hn⟩)
      (outsAt1 V c ((⟨n + 1, hn⟩ : Fin cfg1.N).val - 1) (Nat.lt_of_le_of_lt (Nat.sub_le _ _) (⟨n + 1, hn⟩ : Fin cfg1.N).isLt))) (ix2 g q)).trans ?_
    rw [pay2_apply, acc_succ]
    refine congrArg₂ (· + ·) (ih (Nat.lt_of_succ_lt hn) (Nat.lt_of_succ_lt hn') g q) ?_
    unfold Spec.part
    refine Finset.sum_congr rfl fun k _ => ?_
    rw [sblk_apply V c ⟨n + 1, hn⟩ hn' k, pblk_apply V c ⟨n + 1, hn⟩ hn' k q]

/-- The last point. -/
private abbrev tLast : Fin cfg1.N := ⟨99, by rw [show cfg1.N = 100 from N_1]; decide⟩

/-- The sums through the last tile, as contents of the output array. -/
private abbrev result (c : Dev nD) : Vec Ideal S512x10 .f32 :=
  fun i => Spec.acc (G := 512) (C := 10) (fun e => aB V c (ix2 e 0)) (fun e q => aP V c (ix2 e q)) 99 (by decide) (i 0) (i 1)

theorem outsAt_last (c : Dev nD) : outsAt1 V c tLast.val tLast.isLt = result V c := by
  funext i
  obtain ⟨g, q, rfl⟩ : ∃ g q, i = ix2 g q := ⟨i 0, i 1, eq_ix2 i⟩
  exact outsAt_eq V c 99 tLast.isLt (by decide) g q

/-- The one write-back, at the last point, writes them: block (0, 0) of the 512x10 array, read through zero
    offsets, is the array. -/
theorem flushed_eq (c : Dev nD) (t : Fin cfg1.N) (hf : (cfg1.win 2).flush t = true) :
    (dat1 V c).flushed 2 t = ((cfg1.win 2).blk t).view.read (Elt Ideal) (result V c) := by
  have hN : cfg1.N = 100 := N_1
  have h99 : t.val = 99 := by have := (flush1_2 t).mp hf; have := t.isLt; omega
  obtain rfl : t = tLast := Fin.ext h99
  show (cfg1.win 2).cut (grid1.coords tLast) ((dat1 V c).after 2 tLast) = _
  rw [after1_2, outsAt_last]
  have hz' : (fun a => win1_2.index tLast a * main_v20.ty.shape.size a) = fun _ => 0 := funext fun a => by fin_cases a <;> decide
  exact (Memref.read_access_unit_zero (Elt Ideal) main_v20 hz' (fun a => by rw [congrFun hz' a]; simp) (result V c)).symm

/-- The output array after the last point: the 100 tiles' partial sums added up in order. -/
theorem arr2 (c : Dev nD) :
    ((dat1 V c).arrAt 2 cfg1.N : Vec Ideal S512x10 .f32)
      = fun i => Spec.acc (G := 512) (C := 10) (fun e => aB V c (ix2 e 0)) (fun e q => aP V c (ix2 e q)) 99 (by decide) (i 0) (i 1) :=
  (dat1 V c).arrAt_eq_of_cover 2 (result V c) (flushed_eq V c) fun i =>
    ⟨tLast, (flush1_2 tLast).mpr rfl, by
      show i ∈ ((View.whole main_v20).slice (win1_2.rect tLast)).set
      rw [View.set_slice_whole, Rect.mem_set_unit]
      intro a
      have h0 : (i 0 : Nat) < 512 := (i 0).isLt
      have h1 : (i 1 : Nat) < 10 := (i 1).isLt
      match a with
      | ⟨0, _⟩ =>
        show win1_2.index tLast 0 * win1_2.size 0 ≤ (i 0 : Nat) ∧ (i 0 : Nat) < win1_2.index tLast 0 * win1_2.size 0 + win1_2.xsize (grid1.coords tLast) 0
        rw [show win1_2.index tLast 0 * win1_2.size 0 = 0 from by decide +kernel, show win1_2.xsize (grid1.coords tLast) 0 = 512 from by decide +kernel]; omega
      | ⟨1, _⟩ =>
        show win1_2.index tLast 1 * win1_2.size 1 ≤ (i 1 : Nat) ∧ (i 1 : Nat) < win1_2.index tLast 1 * win1_2.size 1 + win1_2.xsize (grid1.coords tLast) 1
        rw [show win1_2.index tLast 1 * win1_2.size 1 = 0 from by decide +kernel, show win1_2.xsize (grid1.coords tLast) 1 = 10 from by decide +kernel]; omega⟩

end Cert.KernelIdeal.R1

end
-- ==== Proof.Boundary.lean ====
/-
  What the buffers hold at the boundaries between the program's segments, read back to the launch contents.

  The program is: host operations (the pooled features and their gather, the two halves of the second network's first
  weight matrix, the biases as rows), region 0 (the per-node networks), one host reshape (the segment words as a
  column), region 1 (the per-graph sum). A result array of a region holds what that region's pipeline leaves and is
  written by nothing afterwards; an input array of a region is an argument, untouched since the launch, or the result of
  a host operation on arguments, or an earlier region's result.
-/
import proofs.«427214_j54589034332715_1_alg».proof.Proof.Gen.KernelIdeal.Frame
import proofs.«427214_j54589034332715_1_alg».proof.Proof.Region0
import proofs.«427214_j54589034332715_1_alg».proof.Proof.Region1
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Boundary

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-! ## The three results at the last boundary -/

/-- The per-graph sums are region 1's output array after its last point. -/
theorem out_eq (c : Dev nD) :
    W4 m ρ c (Proc.devRef .tc main_v20) = (dat1 (V3 m ρ) c).arrAt 2 cfg1.N := W4_arr m ρ c 2

/-- Region 0's result arrays are its output arrays after its last point: the reshape between the regions and region 1
    write none of them. -/
theorem W4_of_region0 (c : Dev nD) (b : Ref sig .tc) (h1 : ∀ w, Pipeline.arrRef spec1 w ≠ b)
    (hb : Proc.devRef (τ := τ) .tc b ≠ Proc.devRef .tc main_v19) :
    W4 m ρ c (Proc.devRef .tc b) = W2 m ρ c (Proc.devRef .tc b) :=
  (W4_of_ne m ρ c b h1).trans (StableHlo.after_of_forall_not_mem (b := Proc.devRef .tc b) _ _ (List.forall_iff_forall_mem.mp (by
          simp only [hostOps1, List.Forall, StableHlo.reshape_writes, Finset.mem_singleton]
          exact hb)))

theorem theta_eq (c : Dev nD) :
    W4 m ρ c (Proc.devRef .tc main_v18_1) = (dat0 (V1 m ρ) c).arrAt 14 cfg0.N :=
  (W4_of_region0 m ρ c main_v18_1 (by decide) (StableHlo.devRef_ne_of_ne (by decide))).trans (W2_arr m ρ c 14)

theorem h_eq (c : Dev nD) :
    W4 m ρ c (Proc.devRef .tc main_v18_0) = (dat0 (V1 m ρ) c).arrAt 13 cfg0.N :=
  (W4_of_region0 m ρ c main_v18_0 (by decide) (StableHlo.devRef_ne_of_ne (by decide))).trans (W2_arr m ρ c 13)

/-! ## Region 1's input arrays at its entry -/

/-- The products region 1 reads are region 0's third output array after its last point. -/
theorem p_eq (c : Dev nD) : R1.aP (V3 m ρ) c = (dat0 (V1 m ρ) c).arrAt 15 cfg0.N :=
  (StableHlo.after_of_forall_not_mem (b := Proc.devRef .tc main_v18_2) _ _ (List.forall_iff_forall_mem.mp (by
          simp only [hostOps1, List.Forall, StableHlo.reshape_writes, Finset.mem_singleton]
          exact StableHlo.devRef_ne_of_ne (by decide)))).trans (W2_arr m ρ c 15)

/-- The segment words are untouched from the launch to region 1's entry. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The column of segment words region 1 reads holds, at row e, the launch's segment word e. -/
theorem b_eq (c : Dev nD) (e : Fin 300000) :
    R1.aB (V3 m ρ) c (ix2 e 0) = (m ((c : Thread nD τ).loc main_arg1) : Vec Ideal S300000 .i32) (ix1 e) := by
  have hv : (V3 m ρ c main_v19 : Vec Ideal S300000x1 .i32)
      = shapeCast S300000x1 (W2 m ρ c (Proc.devRef .tc main_arg1) : Vec Ideal S300000 .i32) shapeCasts_S300000_S300000x1 := by
    show StableHlo.after hostOps1 (W2 m ρ c) (Proc.devRef .tc main_v19) = _
    after_results
    rfl
  show (V3 m ρ c main_v19 : Vec Ideal S300000x1 .i32) (ix2 e 0) = _
  rw [hv, W2_arg1]
  refine shapeCast_apply (s := S300000) (t := S300000x1) _ shapeCasts_S300000_S300000x1 (ix2 e 0) (ix1 e) ?_
  show ((⟨1, ![300000]⟩ : Shape).rowMajor (ix1 e)).val = ((⟨2, ![300000, 1]⟩ : Shape).rowMajor (ix2 e 0)).val
  rw [Shape.rowMajor_val_two, Shape.rowMajor_val_one]
  show e.val = e.val * 1 + 0
  omega

/-! ## Region 0's input arrays at its entry -/

/-- The node features are the argument as launched: no host operation writes it. -/
theorem x_eq (c : Dev nD) : R0.aX (V1 m ρ) c = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first network's first weight matrix is the argument as launched. -/
theorem hW0_eq (c : Dev nD) : R0.aHW0 (V1 m ρ) c = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first network's second weight matrix is the argument as launched. -/
theorem hW1_eq (c : Dev nD) : R0.aHW1 (V1 m ρ) c = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first network's third weight matrix is the argument as launched. -/
theorem hW2_eq (c : Dev nD) : R0.aHW2 (V1 m ρ) c = m ((c : Thread nD τ).loc main_arg6) :=
  StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second network's second weight matrix is the argument as launched. -/
theorem tW1_eq (c : Dev nD) : R0.aTW1 (V1 m ρ) c = m ((c : Thread nD τ).loc main_arg10) :=
  StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first network's first bias, laid out as a row, holds the argument's entry j at column j. -/
theorem hb0_eq (c : Dev nD) (j : Fin 256) :
    R0.aHB0 (V1 m ρ) c (ix2 0 j) = (m ((c : Thread nD τ).loc main_arg3) : Vec Ideal S256 .f32) (ix1 j) := by
  have hv : (V1 m ρ c main_v13 : Vec Ideal S1x256 .f32)
      = shapeCast S1x256 (m ((c : Thread nD τ).loc main_arg3) : Vec Ideal S256 .f32) shapeCasts_S256_S1x256 := by
    show StableHlo.after hostOps0 (W0 m ρ c) (Proc.devRef .tc main_v13) = _
    after_results
    rfl
  show (V1 m ρ c main_v13 : Vec Ideal S1x256 .f32) (ix2 0 j) = _
  rw [hv]
  exact shapeCast_a_1a_apply _ _ 0 j

/-- The first network's second bias as a row. -/
theorem hb1_eq (c : Dev nD) (j : Fin 256) :
    R0.aHB1 (V1 m ρ) c (ix2 0 j) = (m ((c : Thread nD τ).loc main_arg5) : Vec Ideal S256 .f32) (ix1 j) := by
  have hv : (V1 m ρ c main_v14 : Vec Ideal S1x256 .f32)
      = shapeCast S1x256 (m ((c : Thread nD τ).loc main_arg5) : Vec Ideal S256 .f32) shapeCasts_S256_S1x256 := by
    show StableHlo.after hostOps0 (W0 m ρ c) (Proc.devRef .tc main_v14) = _
    after_results
    rfl
  show (V1 m ρ c main_v14 : Vec Ideal S1x256 .f32) (ix2 0 j) = _
  rw [hv]
  exact shapeCast_a_1a_apply _ _ 0 j

/-- The first network's third bias as a row. -/
theorem hb2_eq (c : Dev nD) (j : Fin 10) :
    R0.aHB2 (V1 m ρ) c (ix2 0 j) = (m ((c : Thread nD τ).loc main_arg7) : Vec Ideal S10 .f32) (ix1 j) := by
  have hv : (V1 m ρ c main_v15 : Vec Ideal S1x10 .f32)
      = shapeCast S1x10 (m ((c : Thread nD τ).loc main_arg7) : Vec Ideal S10 .f32) shapeCasts_S10_S1x10 := by
    show StableHlo.after hostOps0 (W0 m ρ c) (Proc.devRef .tc main_v15) = _
    after_results
    rfl
  show (V1 m ρ c main_v15 : Vec Ideal S1x10 .f32) (ix2 0 j) = _
  rw [hv]
  exact shapeCast_a_1a_apply _ _ 0 j

/-- The second network's first bias as a row. -/
theorem tb0_eq (c : Dev nD) (j : Fin 256) :
    R0.aTB0 (V1 m ρ) c (ix2 0 j) = (m ((c : Thread nD τ).loc main_arg9) : Vec Ideal S256 .f32) (ix1 j) := by
  have hv : (V1 m ρ c main_v16 : Vec Ideal S1x256 .f32)
      = shapeCast S1x256 (m ((c : Thread nD τ).loc main_arg9) : Vec Ideal S256 .f32) shapeCasts_S256_S1x256 := by
    show StableHlo.after hostOps0 (W0 m ρ c) (Proc.devRef .tc main_v16) = _
    after_results
    rfl
  show (V1 m ρ c main_v16 : Vec Ideal S1x256 .f32) (ix2 0 j) = _
  rw [hv]
  exact shapeCast_a_1a_apply _ _ 0 j

/-- The second network's second bias as a row. -/
theorem tb1_eq (c : Dev nD) (j : Fin 10) :
    R0.aTB1 (V1 m ρ) c (ix2 0 j) = (m ((c : Thread nD τ).loc main_arg11) : Vec Ideal S10 .f32) (ix1 j) := by
  have hv : (V1 m ρ c main_v17 : Vec Ideal S1x10 .f32)
      = shapeCast S1x10 (m ((c : Thread nD τ).loc main_arg11) : Vec Ideal S10 .f32) shapeCasts_S10_S1x10 := by
    show StableHlo.after hostOps0 (W0 m ρ c) (Proc.devRef .tc main_v17) = _
    after_results
    rfl
  show (V1 m ρ c main_v17 : Vec Ideal S1x10 .f32) (ix2 0 j) = _
  rw [hv]
  exact shapeCast_a_1a_apply _ _ 0 j

/-- The upper half of the second network's first weight matrix: rows 0 .. 255 of the argument. -/
theorem tWx_eq (c : Dev nD) (k j : Fin 256) :
    R0.aTWx (V1 m ρ) c (ix2 k j)
      = (m ((c : Thread nD τ).loc main_arg8) : Vec Ideal S512x256 .f32) (ix2 (⟨k.val, by have := k.isLt; omega⟩ : Fin 512) j) := by
  have hv : (V1 m ρ c main_v11 : Vec Ideal S256x256 .f32)
      = extractStridedSlice S256x256 ![0, 0] (m ((c : Thread nD τ).loc main_arg8) : Vec Ideal S512x256 .f32) slices_S512x256_S256x256_0_0 := by
    show StableHlo.after hostOps0 (W0 m ρ c) (Proc.devRef .tc main_v11) = _
    after_results
  show (V1 m ρ c main_v11 : Vec Ideal S256x256 .f32) (ix2 k j) = _
  rw [hv]
  exact slice2_axis0_apply 0 _ _ k j _ (Nat.zero_add _).symm

/-- The lower half of the second network's first weight matrix: rows 256 .. 511 of the argument. -/
theorem tWp_eq (c : Dev nD) (k j : Fin 256) :
    R0.aTWp (V1 m ρ) c (ix2 k j)
      = (m ((c : Thread nD τ).loc main_arg8) : Vec Ideal S512x256 .f32) (ix2 (⟨256 + k.val, by have := k.isLt; omega⟩ : Fin 512) j) := by
  have hv : (V1 m ρ c main_v12 : Vec Ideal S256x256 .f32)
      = extractStridedSlice S256x256 ![256, 0] (m ((c : Thread nD τ).loc main_arg8) : Vec Ideal S512x256 .f32) slices_S512x256_S256x256_256_0 := by
    show StableHlo.after hostOps0 (W0 m ρ c) (Proc.devRef .tc main_v12) = _
    after_results
  show (V1 m ρ c main_v12 : Vec Ideal S256x256 .f32) (ix2 k j) = _
  rw [hv]
  exact slice2_axis0_apply 256 _ _ k j _ rfl

/-- The pooled features gathered back to the nodes, from the arguments: the segment sum of the node features (its
    change of float format the identity on extended reals), read at each node's segment word, a negative word wrapped
    by the number of segments first. -/
theorem pb_eq (c : Dev nD) :
    R0.aPB (V1 m ρ) c
      = Host.gather gather_S512x256_S300000x1_S300000x256_1_0_n_n_0_1_1256
          (truncf (F := Ideal) .bf16
            (Host.scatterAdd (F := Ideal) scatter_S512x256_S300000x1_S300000x256_1_0_0_1
              (broadcastInDim S512x256 ![] bcast_S_S512x256 (constant (F := Ideal) S_ .f32 0x00000000#32))
              (broadcastInDim S300000x1 ![0] bcast_S300000_S300000x1_0 (m ((c : Thread nD τ).loc main_arg1) : Vec Ideal S300000 .i32))
              (m ((c : Thread nD τ).loc main_arg0) : Vec Ideal S300000x256 .f32))
            bitsLt_bf16_f32)
          (broadcastInDim S300000x1 ![0] bcast_S300000_S300000x1_0
            (select
              (cmpi .slt (m ((c : Thread nD τ).loc main_arg1) : Vec Ideal S300000 .i32) (broadcastInDim S300000 ![] bcast_S_S300000 (constantI S_ 32 0#32)))
              (addi (m ((c : Thread nD τ).loc main_arg1) : Vec Ideal S300000 .i32) (broadcastInDim S300000 ![] bcast_S_S300000 (constantI S_ 32 512#32)))
              (m ((c : Thread nD τ).loc main_arg1) : Vec Ideal S300000 .i32))) := by
  show StableHlo.after hostOps0 (W0 m ρ c) (Proc.devRef .tc main_v10) = _
  after_results

end Cert.KernelIdeal.Boundary

end
-- ==== Proof.SpecLaws.lean ====
/-
  The tile-by-tile sum is the segment sum: a row's indicator times its value is the value when the row's segment word
  names the segment and zero otherwise; rows 3000 n + k, over tiles n < 100 and k < 3000, are all 300000 rows, each once.
-/
import proofs.«427214_j54589034332715_1_alg».proof.Proof.Spec
import Mathlib.Logic.Equiv.Fin.Basic
import Mathlib.Data.Fintype.BigOperators
import Mathlib.Algebra.BigOperators.Group.Finset.Basic

noncomputable section

open scoped BigOperators

namespace Cert.Spec

/-- Through tile n, the running sum is the sum of the first n + 1 partial sums. -/
private theorem acc_eq_sum {G C : Nat} (seg : Fin 300000 → BitVec 32) (p : Fin 300000 → Fin C → EReal)
    (g : Fin G) (q : Fin C) :
    ∀ (n : Nat) (hn : n < 100),
      acc seg p n hn g q = ∑ t : Fin (n + 1), part seg p t.val (lt_of_le_of_lt (Nat.le_of_lt_succ t.isLt) hn) g q
  | 0, hn => by
      simp [acc]
  | n + 1, hn => by
      rw [Fin.sum_univ_castSucc]
      simp only [acc, Fin.val_castSucc, Fin.val_last]
      rw [acc_eq_sum seg p g q n (Nat.lt_of_succ_lt hn)]

/-- Rows 3000 t + k, over tiles t < 100 and k < 3000, are all 300000 rows, each once: a sum over the rows taken
tile by tile is the sum over all rows. -/
private theorem sum_tiles {M : Type*} [AddCommMonoid M] (f : Fin 300000 → M) :
    ∑ t : Fin 100, ∑ k : Fin 3000, f (rowOf t.val t.isLt k) = ∑ e : Fin 300000, f e := by
  rw [← Fintype.sum_prod_type' (fun (t : Fin 100) (k : Fin 3000) => f (rowOf t.val t.isLt k))]
  refine Fintype.sum_equiv (finProdFinEquiv.trans (finCongr (by norm_num))) _ _ (fun x => ?_)
  congr 1
  apply Fin.ext
  simp only [rowOf, Equiv.trans_apply, finCongr_apply, Fin.val_cast, finProdFinEquiv_apply_val]
  exact Nat.add_comm _ _

/-- A row's indicator times its value is the value when the row's segment word names the segment, else zero. -/
private theorem oh_mul {G : Nat} (b : BitVec 32) (g : Fin G) (v : EReal) :
    oh b g * v = if b.toInt = (g.val : ℤ) then v else 0 := by
  unfold oh
  split_ifs <;> simp

/-- Through the last tile, the tiles' partial sums added up in order are the segment sum. -/
theorem acc_last {G C : Nat} (seg : Fin 300000 → BitVec 32) (p : Fin 300000 → Fin C → EReal) (h : 99 < 100)
    (g : Fin G) (q : Fin C) : acc seg p 99 h g q = segSum seg p g q := by
  rw [acc_eq_sum seg p g q 99 h]
  show ∑ t : Fin 100, part seg p t.val _ g q = _
  unfold part segSum
  rw [sum_tiles (fun e => oh (seg e) g * p e q), Finset.sum_filter]
  exact Finset.sum_congr rfl (fun e _ => oh_mul _ _ _)

end Cert.Spec

end
-- ==== Proof.Bridge.lean ====
/-
  The kernel's three result arrays as functions of its argument arrays.

  Region 0's outputs are the two networks and their product at the arrays it finds at its entry; those arrays are the
  arguments (the biases as rows, the second network's first weight matrix as its two halves) and the pooled features
  gathered back to the nodes, which are the very term the reference gathers (a change of float format is the identity
  on extended reals). Region 1's output is the tile-by-tile sum of the products under the segment words, which is the
  segment sum.
-/
import proofs.«427214_j54589034332715_1_alg».proof.Proof.Boundary
import proofs.«427214_j54589034332715_1_alg».proof.Proof.SpecLaws
import proofs.«427214_j54589034332715_1_alg».proof.Proof.Gen.ReferenceIdeal.Read

set_option maxRecDepth 16384

noncomputable section

namespace Cert.Bridge

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The argument arrays at their literal types. -/
abbrev A0 (c : Dev nD) : Vec Ideal S300000x256 .f32 := m ((c : Thread nD τ).loc main_arg0)
abbrev A1 (c : Dev nD) : Vec Ideal S300000 .i32 := m ((c : Thread nD τ).loc main_arg1)
abbrev A2 (c : Dev nD) : Vec Ideal S256x256 .f32 := m ((c : Thread nD τ).loc main_arg2)
abbrev A3 (c : Dev nD) : Vec Ideal S256 .f32 := m ((c : Thread nD τ).loc main_arg3)
abbrev A4 (c : Dev nD) : Vec Ideal S256x256 .f32 := m ((c : Thread nD τ).loc main_arg4)
abbrev A5 (c : Dev nD) : Vec Ideal S256 .f32 := m ((c : Thread nD τ).loc main_arg5)
abbrev A6 (c : Dev nD) : Vec Ideal S256x10 .f32 := m ((c : Thread nD τ).loc main_arg6)
abbrev A7 (c : Dev nD) : Vec Ideal S10 .f32 := m ((c : Thread nD τ).loc main_arg7)
abbrev A8 (c : Dev nD) : Vec Ideal S512x256 .f32 := m ((c : Thread nD τ).loc main_arg8)
abbrev A9 (c : Dev nD) : Vec Ideal S256 .f32 := m ((c : Thread nD τ).loc main_arg9)
abbrev A10 (c : Dev nD) : Vec Ideal S256x10 .f32 := m ((c : Thread nD τ).loc main_arg10)
abbrev A11 (c : Dev nD) : Vec Ideal S10 .f32 := m ((c : Thread nD τ).loc main_arg11)

/-- The first network at (node n, class q), from the arguments. -/
def hK (c : Dev nD) (n : Fin 300000) (q : Fin 10) : EReal :=
  Spec.hNet (fun n k => A0 m c (ix2 n k)) (fun k j => A2 m c (ix2 k j)) (fun j => A3 m c (ix1 j))
    (fun k j => A4 m c (ix2 k j)) (fun j => A5 m c (ix1 j)) (fun k j => A6 m c (ix2 k j)) (fun j => A7 m c (ix1 j)) n q

/-- The second network at (node n, class q), from the arguments; the pooled features are the reference's gathered stage. -/
def thetaK (c : Dev nD) (n : Fin 300000) (q : Fin 10) : EReal :=
  Spec.thetaNet (fun n k => A0 m c (ix2 n k))
    (fun n k => Cert.ReferenceIdeal.Read.val_main_v23 (F := Ideal) (A0 m c) (A1 m c) (ix2 n k))
    (fun (k : Fin 256) (j : Fin 256) => A8 m c (ix2 (⟨k.val, by have := k.isLt; omega⟩ : Fin 512) j))
    (fun (k : Fin 256) (j : Fin 256) => A8 m c (ix2 (⟨256 + k.val, by have := k.isLt; omega⟩ : Fin 512) j))
    (fun j => A9 m c (ix1 j)) (fun k j => A10 m c (ix2 k j)) (fun j => A11 m c (ix1 j)) n q

/-- The per-graph sum of the products at (graph g, class q), from the arguments. -/
def outK (c : Dev nD) (g : Fin 512) (q : Fin 10) : EReal :=
  Spec.segSum (G := 512) (C := 10) (fun e => A1 m c (ix1 e)) (fun e q => hK m c e q * thetaK m c e q) g q

/-! ## The specification's functions respect pointwise equality of their inputs -/

theorem hNet_congr {N D C : Nat} {x x' : Fin N → Fin D → EReal} {W0 W0' : Fin D → Fin D → EReal} {b0 b0' : Fin D → EReal}
    {W1 W1' : Fin D → Fin D → EReal} {b1 b1' : Fin D → EReal} {W2 W2' : Fin D → Fin C → EReal} {b2 b2' : Fin C → EReal}
    (hx : ∀ n k, x n k = x' n k) (hW0 : ∀ k j, W0 k j = W0' k j) (hb0 : ∀ j, b0 j = b0' j)
    (hW1 : ∀ k j, W1 k j = W1' k j) (hb1 : ∀ j, b1 j = b1' j) (hW2 : ∀ k j, W2 k j = W2' k j) (hb2 : ∀ j, b2 j = b2' j)
    (n : Fin N) (q : Fin C) : Spec.hNet x W0 b0 W1 b1 W2 b2 n q = Spec.hNet x' W0' b0' W1' b1' W2' b2' n q := by
  obtain rfl : x = x' := funext fun n => funext (hx n)
  obtain rfl : W0 = W0' := funext fun k => funext (hW0 k)
  obtain rfl : b0 = b0' := funext hb0
  obtain rfl : W1 = W1' := funext fun k => funext (hW1 k)
  obtain rfl : b1 = b1' := funext hb1
  obtain rfl : W2 = W2' := funext fun k => funext (hW2 k)
  obtain rfl : b2 = b2' := funext hb2
  rfl

theorem thetaNet_congr {N D J C : Nat} {x x' pb pb' : Fin N → Fin D → EReal} {Wx Wx' Wp Wp' : Fin D → Fin J → EReal}
    {b0 b0' : Fin J → EReal} {W1 W1' : Fin J → Fin C → EReal} {b1 b1' : Fin C → EReal}
    (hx : ∀ n k, x n k = x' n k) (hpb : ∀ n k, pb n k = pb' n k) (hWx : ∀ k j, Wx k j = Wx' k j)
    (hWp : ∀ k j, Wp k j = Wp' k j) (hb0 : ∀ j, b0 j = b0' j) (hW1 : ∀ k j, W1 k j = W1' k j) (hb1 : ∀ j, b1 j = b1' j)
    (n : Fin N) (q : Fin C) : Spec.thetaNet x pb Wx Wp b0 W1 b1 n q = Spec.thetaNet x' pb' Wx' Wp' b0' W1' b1' n q := by
  obtain rfl : x = x' := funext fun n => funext (hx n)
  obtain rfl : pb = pb' := funext fun n => funext (hpb n)
  obtain rfl : Wx = Wx' := funext fun k => funext (hWx k)
  obtain rfl : Wp = Wp' := funext fun k => funext (hWp k)
  obtain rfl : b0 = b0' := funext hb0
  obtain rfl : W1 = W1' := funext fun k => funext (hW1 k)
  obtain rfl : b1 = b1' := funext hb1
  rfl

theorem segSum_congr {M G C : Nat} {seg seg' : Fin M → BitVec 32} {p p' : Fin M → Fin C → EReal}
    (hs : ∀ e, seg e = seg' e) (hp : ∀ e q, p e q = p' e q) (g : Fin G) (q : Fin C) :
    Spec.segSum seg p g q = Spec.segSum seg' p' g q := by
  obtain rfl : seg = seg' := funext hs
  obtain rfl : p = p' := funext fun e => funext (hp e)
  rfl

/-! ## The kernel's results from the arguments -/

/-- Region 0 computes the first network of the arguments. -/
theorem h_bridge (c : Dev nD) (n : Fin 300000) (q : Fin 10) : R0.hSpec (V1 m ρ) c n q = hK m c n q := by
  exact hNet_congr (fun n k => congrFun (Boundary.x_eq m ρ c) (ix2 n k)) (fun k j => congrFun (Boundary.hW0_eq m ρ c) (ix2 k j))
    (Boundary.hb0_eq m ρ c) (fun k j => congrFun (Boundary.hW1_eq m ρ c) (ix2 k j)) (Boundary.hb1_eq m ρ c)
    (fun k j => congrFun (Boundary.hW2_eq m ρ c) (ix2 k j)) (Boundary.hb2_eq m ρ c) n q

/-- The pooled features the kernel gathers are the reference's: the same segment sum read at the same words. -/
theorem pooled (c : Dev nD) :
    R0.aPB (V1 m ρ) c = Cert.ReferenceIdeal.Read.val_main_v23 (F := Ideal) (A0 m c) (A1 m c) := by
  rw [Boundary.pb_eq]
  rfl

/-- Region 0 computes the second network of the arguments. -/
theorem theta_bridge (c : Dev nD) (n : Fin 300000) (q : Fin 10) : R0.thetaSpec (V1 m ρ) c n q = thetaK m c n q := by
  exact thetaNet_congr (fun n k => congrFun (Boundary.x_eq m ρ c) (ix2 n k)) (fun n k => congrFun (pooled m ρ c) (ix2 n k))
    (Boundary.tWx_eq m ρ c) (Boundary.tWp_eq m ρ c) (Boundary.tb0_eq m ρ c)
    (fun k j => congrFun (Boundary.tW1_eq m ρ c) (ix2 k j)) (Boundary.tb1_eq m ρ c) n q

/-- The third result: the first network's scores. -/
theorem kernel_h (c : Dev nD) :
    (W4 m ρ c (Proc.devRef .tc main_v18_0) : Vec Ideal S300000x10 .f32) = fun i => hK m c (i 0) (i 1) := by
  rw [Boundary.h_eq, R0.arr13]
  funext i
  exact h_bridge m ρ c _ _

/-- The second result: the second network's scores. -/
theorem kernel_theta (c : Dev nD) :
    (W4 m ρ c (Proc.devRef .tc main_v18_1) : Vec Ideal S300000x10 .f32) = fun i => thetaK m c (i 0) (i 1) := by
  rw [Boundary.theta_eq, R0.arr14]
  funext i
  exact theta_bridge m ρ c _ _

/-- The first result: the per-graph sums. -/
theorem kernel_out (c : Dev nD) :
    (W4 m ρ c (Proc.devRef .tc main_v20) : Vec Ideal S512x10 .f32) = fun i => outK m c (i 0) (i 1) := by
  rw [Boundary.out_eq, R1.arr2]
  funext i
  refine (Spec.acc_last _ _ _ _ _).trans ?_
  refine segSum_congr (Boundary.b_eq m ρ c) (fun e q => ?_) _ _
  -- the product region 1 reads at (e, q) is what region 0 left there: the two networks' scores multiplied
  have hp : R1.aP (V3 m ρ) c (ix2 e q) = R0.hSpec (V1 m ρ) c e q * R0.thetaSpec (V1 m ρ) c e q :=
    (congrFun (Boundary.p_eq m ρ c) (ix2 e q)).trans (congrFun (R0.arr15 (V1 m ρ) c) (ix2 e q))
  rw [hp, h_bridge, theta_bridge]

end Cert.Bridge

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.RefValue.lean ====
/-
  The reference's three results, index by index, as the specification's functions of its argument arrays: the stages
  of its run are read one operation at a time; the joined input of the second network is its two halves side by
  side, so a sum over its 512 columns is the sum over the first 256 plus the sum over the last 256; the final
  per-graph sum is a segment sum of rows.
-/
import proofs.«427214_j54589034332715_1_alg».proof.Proof.Gen.ReferenceIdeal.Read
import proofs.«427214_j54589034332715_1_alg».proof.Proof.Spec
import proofs.«427214_j54589034332715_1_alg».proof.Proof.LibSegmentSum
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.ShloMosaic.TcCoe Idealize.SL.Sem

variable (x0 : Vec Ideal S300000x256 .f32) (x1 : Vec Ideal S300000 .i32)
  (x2 : Vec Ideal S256x256 .f32) (x3 : Vec Ideal S256 .f32) (x4 : Vec Ideal S256x256 .f32) (x5 : Vec Ideal S256 .f32)
  (x6 : Vec Ideal S256x10 .f32) (x7 : Vec Ideal S10 .f32) (x8 : Vec Ideal S512x256 .f32) (x9 : Vec Ideal S256 .f32)
  (x10 : Vec Ideal S256x10 .f32) (x11 : Vec Ideal S10 .f32)

/-! ## Algebra that mentions no program -/

/-- A sum over 512 columns is the sum over the first 256 plus the sum over the last 256. -/
theorem sum_halves (f : Fin 512 → EReal) :
    ∑ k : Fin 512, f k
      = (∑ k : Fin 256, f ⟨k.val, by have := k.isLt; omega⟩) + ∑ k : Fin 256, f ⟨256 + k.val, by have := k.isLt; omega⟩ :=
  Fin.sum_univ_add (a := 256) (b := 256) f

/-- The first network at (node n, class q) from the reference's arguments. -/
def hRef (n : Fin 300000) (q : Fin 10) : EReal :=
  Spec.hNet (fun n k => x0 (ix2 n k)) (fun k j => x2 (ix2 k j)) (fun j => x3 (ix1 j))
    (fun k j => x4 (ix2 k j)) (fun j => x5 (ix1 j)) (fun k j => x6 (ix2 k j)) (fun j => x7 (ix1 j)) n q

/-- The second network at (node n, class q) from the reference's arguments: the pooled features are the reference's
    own gathered stage; the weight matrix's upper half meets the node's features, its lower half the pooled ones. -/
def thetaRef (n : Fin 300000) (q : Fin 10) : EReal :=
  Spec.thetaNet (fun n k => x0 (ix2 n k)) (fun n k => Read.val_main_v23 (F := Ideal) x0 x1 (ix2 n k))
    (fun (k : Fin 256) (j : Fin 256) => x8 (ix2 (⟨k.val, by have := k.isLt; omega⟩ : Fin 512) j))
    (fun (k : Fin 256) (j : Fin 256) => x8 (ix2 (⟨256 + k.val, by have := k.isLt; omega⟩ : Fin 512) j))
    (fun j => x9 (ix1 j)) (fun k j => x10 (ix2 k j)) (fun j => x11 (ix1 j)) n q

/-! ## The first network, layer by layer

Where a stage reads its operands: a product summed over k reads its left operand at (row, k) and its right at
(k, column); a bias spread over the rows is read at the column alone. -/

theorem lidx_v0_eq (n : Fin 300000) (j k : Fin 256) : Read.lidx_main_v0 (ix2 n j) k = ix2 n k :=
  funext fun a => Fin.ext (by match a with | ⟨0, _⟩ => rfl | ⟨1, _⟩ => rfl)
theorem ridx_v0_eq (n : Fin 300000) (j k : Fin 256) : Read.ridx_main_v0 (ix2 n j) k = ix2 k j :=
  funext fun a => Fin.ext (by match a with | ⟨0, _⟩ => rfl | ⟨1, _⟩ => rfl)
theorem idx_v2_eq (n : Fin 300000) (j : Fin 256) : Read.idx_main_v1 (Read.idx_main_v2 (ix2 n j)) = ix1 j :=
  funext fun a => Fin.ext (by match a with | ⟨0, _⟩ => rfl)
theorem lidx_v5_eq (n : Fin 300000) (j k : Fin 256) : Read.lidx_main_v5 (ix2 n j) k = ix2 n k :=
  funext fun a => Fin.ext (by match a with | ⟨0, _⟩ => rfl | ⟨1, _⟩ => rfl)
theorem ridx_v5_eq (n : Fin 300000) (j k : Fin 256) : Read.ridx_main_v5 (ix2 n j) k = ix2 k j :=
  funext fun a => Fin.ext (by match a with | ⟨0, _⟩ => rfl | ⟨1, _⟩ => rfl)
theorem idx_v7_eq (n : Fin 300000) (j : Fin 256) : Read.idx_main_v6 (Read.idx_main_v7 (ix2 n j)) = ix1 j :=
  funext fun a => Fin.ext (by match a with | ⟨0, _⟩ => rfl)
theorem lidx_v10_eq (n : Fin 300000) (q : Fin 10) (k : Fin 256) : Read.lidx_main_v10 (ix2 n q) k = ix2 n k :=
  funext fun a => Fin.ext (by match a with | ⟨0, _⟩ => rfl | ⟨1, _⟩ => rfl)
theorem ridx_v10_eq (n : Fin 300000) (q : Fin 10) (k : Fin 256) : Read.ridx_main_v10 (ix2 n q) k = ix2 k q :=
  funext fun a => Fin.ext (by match a with | ⟨0, _⟩ => rfl | ⟨1, _⟩ => rfl)
theorem idx_v12_eq (n : Fin 300000) (q : Fin 10) : Read.idx_main_v11 (Read.idx_main_v12 (ix2 n q)) = ix1 q :=
  funext fun a => Fin.ext (by match a with | ⟨0, _⟩ => rfl)

/-- The first rectified layer of the first network at (node n, unit j). -/
theorem h_hidden1 (n : Fin 300000) (j : Fin 256) :
    Read.val_main_v4 (F := Ideal) x0 x2 x3 (ix2 n j)
      = Spec.rlayer (fun n k => x0 (ix2 n k)) (fun k j => x2 (ix2 k j)) (fun j => x3 (ix1 j)) n j := by
  rw [Read.val_main_v4_apply, Read.val_main_v3_apply, Read.val_main_v0_apply, Read.val_main_v2_apply, Read.val_main_v1_apply,
    Read.val_main_call0_v0_apply, Read.val_main_call0_cst_apply]
  simp only [lidx_v0_eq, ridx_v0_eq, idx_v2_eq, Ideal.addf_def, Ideal.maximumf_def, Ideal.ofBits_def, Ideal.ofBits_zero_f32]
  rfl

/-- The second rectified layer of the first network at (node n, unit j). -/
theorem h_hidden2 (n : Fin 300000) (j : Fin 256) :
    Read.val_main_v9 (F := Ideal) x0 x2 x3 x4 x5 (ix2 n j)
      = Spec.rlayer (Spec.rlayer (fun n k => x0 (ix2 n k)) (fun k j => x2 (ix2 k j)) (fun j => x3 (ix1 j)))
          (fun k j => x4 (ix2 k j)) (fun j => x5 (ix1 j)) n j := by
  rw [Read.val_main_v9_apply, Read.val_main_v8_apply, Read.val_main_v5_apply, Read.val_main_v7_apply, Read.val_main_v6_apply,
    Read.val_main_call1_v0_apply, Read.val_main_call1_cst_apply]
  simp only [lidx_v5_eq, ridx_v5_eq, idx_v7_eq, h_hidden1, Ideal.addf_def, Ideal.maximumf_def, Ideal.ofBits_def, Ideal.ofBits_zero_f32]
  rfl

/-- The first network's scores at (node n, class q). -/
theorem h_scores (n : Fin 300000) (q : Fin 10) :
    Read.val_main_v13 (F := Ideal) x0 x2 x3 x4 x5 x6 x7 (ix2 n q) = hRef x0 x2 x3 x4 x5 x6 x7 n q := by
  rw [Read.val_main_v13_apply, Read.val_main_v10_apply, Read.val_main_v12_apply, Read.val_main_v11_apply]
  simp only [lidx_v10_eq, ridx_v10_eq, idx_v12_eq, h_hidden2, Ideal.addf_def]
  rfl

/-- The reference's third result (the first network's scores). -/
theorem ref_h : Read.val_main_v13 (F := Ideal) x0 x2 x3 x4 x5 x6 x7 = fun i => hRef x0 x2 x3 x4 x5 x6 x7 (i 0) (i 1) := by
  funext i
  obtain ⟨n, q, rfl⟩ : ∃ (n : Fin 300000) (q : Fin 10), i = ix2 n q := ⟨i 0, i 1, eq_ix2 i⟩
  exact h_scores x0 x2 x3 x4 x5 x6 x7 n q

/-! ## The second network: the joined input read half by half, then layer by layer -/

/-- The joined input at a column of its first half is the node's own feature there. -/
theorem cat_left (n : Fin 300000) (k : Fin 256) :
    Read.val_main_v24 (F := Ideal) x0 x1 (ix2 n (⟨k.val, by have := k.isLt; omega⟩ : Fin 512)) = x0 (ix2 n k) := by
  unfold Read.val_main_v24
  exact concatenate_pair_apply_left (t := S300000x512) (s₁ := S300000x256) (s₂ := S300000x256) 1 x0
    (Read.val_main_v23 (F := Ideal) x0 x1) _ (ix2 n (⟨k.val, by have := k.isLt; omega⟩ : Fin 512)) rfl (ix2 n k)
    (fun b => by match b with | ⟨0, _⟩ => rfl | ⟨1, _⟩ => rfl)

/-- The joined input at a column of its second half is the pooled feature at that column, 256 less. -/
theorem cat_right (n : Fin 300000) (k : Fin 256) :
    Read.val_main_v24 (F := Ideal) x0 x1 (ix2 n (⟨256 + k.val, by have := k.isLt; omega⟩ : Fin 512))
      = Read.val_main_v23 (F := Ideal) x0 x1 (ix2 n k) := by
  unfold Read.val_main_v24
  exact concatenate_pair_apply_right (t := S300000x512) (s₁ := S300000x256) (s₂ := S300000x256) 1 x0
    (Read.val_main_v23 (F := Ideal) x0 x1) _ (ix2 n (⟨256 + k.val, by have := k.isLt; omega⟩ : Fin 512)) rfl rfl (ix2 n k)
    (fun b hb => by match b with | ⟨0, _⟩ => rfl | ⟨1, _⟩ => exact absurd rfl hb)
    (Nat.add_comm k.val 256)

/-! Where the second network's stages read their operands: as in the first network, the first product over 512 columns. -/

theorem lidx_v25_eq (n : Fin 300000) (j : Fin 256) (k : Fin 512) : Read.lidx_main_v25 (ix2 n j) k = ix2 n k :=
  funext fun a => Fin.ext (by match a with | ⟨0, _⟩ => rfl | ⟨1, _⟩ => rfl)
theorem ridx_v25_eq (n : Fin 300000) (j : Fin 256) (k : Fin 512) : Read.ridx_main_v25 (ix2 n j) k = ix2 k j :=
  funext fun a => Fin.ext (by match a with | ⟨0, _⟩ => rfl | ⟨1, _⟩ => rfl)
theorem idx_v27_eq (n : Fin 300000) (j : Fin 256) : Read.idx_main_v26 (Read.idx_main_v27 (ix2 n j)) = ix1 j :=
  funext fun a => Fin.ext (by match a with | ⟨0, _⟩ => rfl)
theorem lidx_v30_eq (n : Fin 300000) (q : Fin 10) (k : Fin 256) : Read.lidx_main_v30 (ix2 n q) k = ix2 n k :=
  funext fun a => Fin.ext (by match a with | ⟨0, _⟩ => rfl | ⟨1, _⟩ => rfl)
theorem ridx_v30_eq (n : Fin 300000) (q : Fin 10) (k : Fin 256) : Read.ridx_main_v30 (ix2 n q) k = ix2 k q :=
  funext fun a => Fin.ext (by match a with | ⟨0, _⟩ => rfl | ⟨1, _⟩ => rfl)
theorem idx_v32_eq (n : Fin 300000) (q : Fin 10) : Read.idx_main_v31 (Read.idx_main_v32 (ix2 n q)) = ix1 q :=
  funext fun a => Fin.ext (by match a with | ⟨0, _⟩ => rfl)

/-- The rectified layer of the second network at (node n, unit j): the sum over the joined input's 512 columns is
    the node's own features against the weight matrix's upper half plus the pooled features against its lower half. -/
theorem theta_hidden (n : Fin 300000) (j : Fin 256) :
    Read.val_main_v29 (F := Ideal) x0 x1 x8 x9 (ix2 n j)
      = Spec.splitHidden (fun n k => x0 (ix2 n k)) (fun n k => Read.val_main_v23 (F := Ideal) x0 x1 (ix2 n k))
          (fun (k : Fin 256) (j : Fin 256) => x8 (ix2 (⟨k.val, by have := k.isLt; omega⟩ : Fin 512) j))
          (fun (k : Fin 256) (j : Fin 256) => x8 (ix2 (⟨256 + k.val, by have := k.isLt; omega⟩ : Fin 512) j))
          (fun j => x9 (ix1 j)) n j := by
  rw [Read.val_main_v29_apply, Read.val_main_v28_apply, Read.val_main_v25_apply, Read.val_main_v27_apply, Read.val_main_v26_apply,
    Read.val_main_call2_v0_apply, Read.val_main_call2_cst_apply]
  simp only [lidx_v25_eq, ridx_v25_eq, idx_v27_eq]
  rw [sum_halves]
  simp only [cat_left, cat_right, Ideal.addf_def, Ideal.maximumf_def, Ideal.ofBits_def, Ideal.ofBits_zero_f32]
  rfl

/-- The second network's scores at (node n, class q). -/
theorem theta_scores (n : Fin 300000) (q : Fin 10) :
    Read.val_main_v33 (F := Ideal) x0 x1 x8 x9 x10 x11 (ix2 n q) = thetaRef x0 x1 x8 x9 x10 x11 n q := by
  rw [Read.val_main_v33_apply, Read.val_main_v30_apply, Read.val_main_v32_apply, Read.val_main_v31_apply]
  simp only [lidx_v30_eq, ridx_v30_eq, idx_v32_eq, theta_hidden, Ideal.addf_def]
  rfl

/-- The index table of the per-graph sum at (node e, 0) is node e's segment word. -/
theorem idx_v36_eq (e : Fin 300000) : Read.idx_main_v36 (ix2 e (0 : Fin 1)) = ix1 e :=
  funext fun a => Fin.ext (by match a with | ⟨0, _⟩ => rfl)

/-- The reference's second result (the second network's scores). -/
theorem ref_theta : Read.val_main_v33 (F := Ideal) x0 x1 x8 x9 x10 x11 = fun i => thetaRef x0 x1 x8 x9 x10 x11 (i 0) (i 1) := by
  funext i
  obtain ⟨n, q, rfl⟩ : ∃ (n : Fin 300000) (q : Fin 10), i = ix2 n q := ⟨i 0, i 1, eq_ix2 i⟩
  exact theta_scores x0 x1 x8 x9 x10 x11 n q

/-- The reference's first result (the per-graph sum of the products). -/
theorem ref_out : Read.val_main_v37 (F := Ideal) x0 x1 x2 x3 x4 x5 x6 x7 x8 x9 x10 x11
    = fun i => Spec.segSum (G := 512) (C := 10) (fun e => x1 (ix1 e))
        (fun e q => hRef x0 x2 x3 x4 x5 x6 x7 e q * thetaRef x0 x1 x8 x9 x10 x11 e q) (i 0) (i 1) := by
  funext i
  obtain ⟨g, q, rfl⟩ : ∃ (g : Fin 512) (q : Fin 10), i = ix2 g q := ⟨i 0, i 1, eq_ix2 i⟩
  unfold Read.val_main_v37
  refine (Cert.LibSegmentSum.scatterAdd_segRows scatter_S512x10_S300000x1_S300000x10_1_0_0_1 rfl rfl rfl rfl _ _ _ g q).trans ?_
  rw [Read.val_main_v35_apply, Read.val_main_cst_1_apply]
  simp only [Read.val_main_v36_apply, idx_v36_eq, Read.val_main_v34_apply, h_scores, theta_scores, Ideal.mulf_def,
    Ideal.ofBits_def, Ideal.ofBits_zero_f32, zero_add]
  rfl

end Cert.ReferenceIdeal.RefValue

end
-- ==== Proof.lean ====
/-
  A per-node pair of small networks, pooled over graphs, against its plain reference: the whole claim.

  Both programs compute, for every node n and class q, the first network's score h(n,q) (three dense layers, the first
  two rectified), the second network's score theta(n,q) (a rectified layer over the node's features joined with its
  graph's pooled features, then a dense layer), and for every graph g the sum over the graph's nodes of h * theta.
  The kernel splits the second network's first layer into the node half and the pooled half (a sum over 512 columns is
  the sum over the first 256 plus the sum over the last 256), works tile by tile over the nodes, and takes the per-graph
  sum as an indicator-weighted sum accumulated over the tiles; changes of float format are the identity on extended reals.
  Only commutativity and associativity of addition are used, so the inputs' finiteness is never opened.

  The three frames are the generated ones (the reference's is its generated run with the results dropped); the
  idealization rewrote nothing; the equivalence is the kernel's run with its results named, read back through the
  segment boundaries and the two regions' values, against the reference's run read stage by stage.
-/
import proofs.«427214_j54589034332715_1_alg».proof.Defs
import proofs.«427214_j54589034332715_1_alg».proof.Proof.Gen.Kernel
import proofs.«427214_j54589034332715_1_alg».proof.Proof.Gen.Kernel.Skeleton
import proofs.«427214_j54589034332715_1_alg».proof.Proof.Gen.Kernel.Launch
import proofs.«427214_j54589034332715_1_alg».proof.Proof.Gen.Kernel.Points
import proofs.«427214_j54589034332715_1_alg».proof.Proof.Gen.Kernel.Frame
import proofs.«427214_j54589034332715_1_alg».proof.Proof.Gen.KernelIdeal
import proofs.«427214_j54589034332715_1_alg».proof.Proof.Gen.KernelIdeal.Skeleton
import proofs.«427214_j54589034332715_1_alg».proof.Proof.Gen.KernelIdeal.Launch
import proofs.«427214_j54589034332715_1_alg».proof.Proof.Gen.KernelIdeal.Points
import proofs.«427214_j54589034332715_1_alg».proof.Proof.Gen.KernelIdeal.Frame
import proofs.«427214_j54589034332715_1_alg».proof.Proof.Gen.ReferenceIdeal
import proofs.«427214_j54589034332715_1_alg».proof.Proof.Gen.Pre_finite_inputs
import proofs.«427214_j54589034332715_1_alg».proof.Proof.Gen.ReferenceIdeal.Run
import proofs.«427214_j54589034332715_1_alg».proof.Proof.Gen.ReferenceIdeal.Read
import Idealize.ShloMosaic.Adequacy
import Idealize.ShloMosaic.Init
import proofs.«427214_j54589034332715_1_alg».proof.Proof.NamedRun
import proofs.«427214_j54589034332715_1_alg».proof.Proof.Bridge
import proofs.«427214_j54589034332715_1_alg».proof.Proof.RefValue

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end with the per-graph sums, the second network's scores and
    the first network's scores of those arguments. -/
theorem algebraic : Cert.algebraic_KernelIdeal_ReferenceIdeal := by
  intro m ρ m' ρ' _ hagree
  refine ⟨fun c => ((fun i => Cert.Bridge.outK m c (i 0) (i 1)) : Vec Ideal Cert.KernelIdeal.S512x10 .f32),
    fun c => ((fun i => Cert.Bridge.thetaK m c (i 0) (i 1)) : Vec Ideal Cert.KernelIdeal.S300000x10 .f32),
    fun c => ((fun i => Cert.Bridge.hK m c (i 0) (i 1)) : Vec Ideal Cert.KernelIdeal.S300000x10 .f32), ?_, ?_⟩
  · exact (θ_run Cert.KernelIdeal.defs _ _).mono (fun r h c =>
      ⟨(h c).1.trans (Cert.Bridge.kernel_out m ρ c), (h c).2.1.trans (Cert.Bridge.kernel_theta m ρ c),
        (h c).2.2.1.trans (Cert.Bridge.kernel_h m ρ c), (h c).2.2.2⟩) (Cert.KernelIdeal.Named.run (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11⟩ := hagree c
    refine ⟨(h c).1.trans ?_, (h c).2.1.trans ?_, (h c).2.2.1.trans ?_, (h c).2.2.2⟩
    · rw [Cert.ReferenceIdeal.Read.val_main_v37_eq, Cert.ReferenceIdeal.RefValue.ref_out, e0, e1, e2, e3, e4, e5, e6, e7, e8, e9, e10, e11]
      rfl
    · rw [Cert.ReferenceIdeal.Read.val_main_v33_eq, Cert.ReferenceIdeal.RefValue.ref_theta, e0, e1, e8, e9, e10, e11]
      rfl
    · rw [Cert.ReferenceIdeal.Read.val_main_v13_eq, Cert.ReferenceIdeal.RefValue.ref_h, e0, e2, e3, e4, e5, e6, e7]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
